-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S32000x1024 : Shape := ⟨2, ![32000, 1024]⟩
abbrev S8x1024x1024 : Shape := ⟨3, ![8, 1024, 1024]⟩
abbrev S8x1024 : Shape := ⟨2, ![8, 1024]⟩
abbrev S_ : Shape := ⟨0, ![]⟩
abbrev S32x1 : Shape := ⟨2, ![32, 1]⟩
abbrev S32 : Shape := ⟨1, ![32]⟩

class Facts : Prop where
  bcast_S_S32000x1024 : S_.BroadcastsInDim S32000x1024 (![] : Fin 0 → Fin S32000x1024.rank)
  reducesTo_S32000x1024_S_d0_1 : S32000x1024.ReducesTo [0, 1] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8x1024 : S_.BroadcastsInDim S8x1024 (![] : Fin 0 → Fin S8x1024.rank)
  reducesTo_S8x1024_S_d0_1 : S8x1024.ReducesTo [0, 1] S_
  slices_S32x2048_S32x1_0_0 : S32x2048.Slices ![0, 0] S32x1
  shapeCasts_S32x1_S32 : S32x1.ShapeCasts S32
  bcast_S_S32 : S_.BroadcastsInDim S32 (![] : Fin 0 → Fin S32.rank)
  reducesTo_S32_S_d0 : S32.ReducesTo [0] S_

variable [Facts]

def fn_part1 {F : FTy → Type} [FloatOps F] (main_arg0 : IVec S32x2048 32) (main_v13 : IVec S_ 1) (main_v15 : IVec S32 32) (main_v16 : IVec S32 32) : IVec S_ 1 :=
  let main_v17 : IVec S32 1 := cmpi .sge main_v15 main_v16
  let main_c_5 : IVec S_ 1 := constantI S_ 1 1#1
  let main_v18 : IVec S_ 1 := (fun x v => Host.reduce IntOp.andi x v reducesTo_S32_S_d0 h_S_) main_v17 main_c_5
  let main_v19 : IVec S_ 1 := andi main_v13 main_v18
  let main_v20 : IVec S32x1 32 := (extractStridedSlice S32x1 ![0, 0] · slices_S32x2048_S32x1_0_0) main_arg0
  let main_v21 : IVec S32 32 := shapeCast S32 main_v20 shapeCasts_S32x1_S32
  let main_c_6 : IVec S_ 32 := constantI S_ 32 8#32
  let main_v22 : IVec S32 32 := broadcastInDim S32 ![] bcast_S_S32 main_c_6
  let main_v23 : IVec S32 1 := cmpi .slt main_v21 main_v22
  let main_c_7 : IVec S_ 1 := constantI S_ 1 1#1
  let main_v24 : IVec S_ 1 := (fun x v => Host.reduce IntOp.andi x v reducesTo_S32_S_d0 h_S_) main_v23 main_c_7
  let main_v25 : IVec S_ 1 := andi main_v19 main_v24
  main_v25

def fn {F : FTy → Type} [FloatOps F] (main_arg0 : IVec S32x2048 32) (main_arg1 : FVec F S32000x1024 .f32) (main_arg2 : FVec F S8x1024x1024 .f32) (main_arg3 : FVec F S8x1024 .f32) : IVec S_ 1 :=
  let main_v0 : FVec F S32000x1024 .f32 := Host.absf main_arg1
  let main_cst : FVec F S_ .f32 := constant S_ .f32 0x7F800000#32
  let main_v1 : FVec F S32000x1024 .f32 := broadcastInDim S32000x1024 ![] bcast_S_S32000x1024 main_cst
  let main_v2 : IVec S32000x1024 1 := cmpf .olt main_v0 main_v1
  let main_c : IVec S_ 1 := constantI S_ 1 1#1
  let main_v3 : IVec S_ 1 := (fun x v => Host.reduce IntOp.andi x v reducesTo_S32000x1024_S_d0_1 h_S_) main_v2 main_c
  let main_v4 : FVec F S8x1024x1024 .f32 := Host.absf main_arg2
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : FVec F S8x1024 .f32 := Host.absf main_arg3
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_v14 : IVec S32x1 32 := (extractStridedSlice S32x1 ![0, 0] · slices_S32x2048_S32x1_0_0) main_arg0
  let main_v15 : IVec S32 32 := shapeCast S32 main_v14 shapeCasts_S32x1_S32
  let main_c_4 : IVec S_ 32 := constantI S_ 32 0#32
  let main_v16 : IVec S32 32 := broadcastInDim S32 ![] bcast_S_S32 main_c_4
  fn_part1 (F := F) main_arg0 main_v13 main_v15 main_v16
-- ==== Kernel.lean ====
abbrev S32x2048 : Shape := ⟨2, ![32, 2048]⟩
abbrev S32000x1024 : Shape := ⟨2, ![32000, 1024]⟩
abbrev S8x1024x1024 : Shape := ⟨3, ![8, 1024, 1024]⟩
abbrev S8x1024 : Shape := ⟨2, ![8, 1024]⟩
abbrev S32x1 : Shape := ⟨2, ![32, 1]⟩
abbrev S32 : Shape := ⟨1, ![32]⟩
abbrev S_ : Shape := ⟨0, ![]⟩
abbrev S32x2048x1 : Shape := ⟨3, ![32, 2048, 1]⟩
abbrev S32x2048x1024 : Shape := ⟨3, ![32, 2048, 1024]⟩
abbrev S8x1x1024 : Shape := ⟨3, ![8, 1, 1024]⟩
abbrev S1x2048x1024 : Shape := ⟨3, ![1, 2048, 1024]⟩
abbrev S1 : Shape := ⟨1, ![1]⟩
abbrev S1x1024x1024 : Shape := ⟨3, ![1, 1024, 1024]⟩
abbrev S1x1x1024 : Shape := ⟨3, ![1, 1, 1024]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 37
  | .vmem => 8
  | .smem => 2
  | _ => 0

abbrev bufTy : (tb : Table) → Fin (tcTables nBuf tb) → BufTy
  | .hbm, ⟨0, _⟩ => ⟨S32x2048, .i32⟩
  | .hbm, ⟨1, _⟩ => ⟨S32000x1024, .f32⟩
  | .hbm, ⟨2, _⟩ => ⟨S8x1024x1024, .f32⟩
  | .hbm, ⟨3, _⟩ => ⟨S8x1024, .f32⟩
  | .hbm, ⟨4, _⟩ => ⟨S32x1, .i32⟩
  | .hbm, ⟨5, _⟩ => ⟨S32, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S_, .i32⟩
  | .hbm, ⟨20, _⟩ => ⟨S32, .i32⟩
  | .hbm, ⟨21, _⟩ => ⟨S32, .i32⟩
  | .hbm, ⟨22, _⟩ => ⟨S32, .i32⟩
  | .hbm, ⟨23, _⟩ => ⟨S32x1, .i32⟩
  | .hbm, ⟨24, _⟩ => ⟨S32000x1024, .bf16⟩
  | .hbm, ⟨25, _⟩ => ⟨S_, .i32⟩
  | .hbm, ⟨26, _⟩ => ⟨S32x2048, .i32⟩
  | .hbm, ⟨27, _⟩ => ⟨S32x2048, .i1⟩
  | .hbm, ⟨28, _⟩ => ⟨S_, .i32⟩
  | .hbm, ⟨29, _⟩ => ⟨S32x2048, .i32⟩
  | .hbm, ⟨30, _⟩ => ⟨S32x2048, .i32⟩
  | .hbm, ⟨31, _⟩ => ⟨S32x2048, .i32⟩
  | .hbm, ⟨32, _⟩ => ⟨S32x2048x1, .i32⟩
  | .hbm, ⟨33, _⟩ => ⟨S32x2048x1024, .bf16⟩
  | .hbm, ⟨34, _⟩ => ⟨S8x1024x1024, .bf16⟩
  | .hbm, ⟨35, _⟩ => ⟨S8x1x1024, .f32⟩
  | .hbm, ⟨36, _⟩ => ⟨S32x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x2048x1024, .f32⟩
  | .local _ .vmem, ⟨7, _⟩ => ⟨S1x2048x1024, .f32⟩
  | .local _ .smem, ⟨0, _⟩ => ⟨S32, .i32⟩
  | .local _ .smem, ⟨1, _⟩ => ⟨S32, .i32⟩
  | _, _ => ⟨S32x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_call1_v0 : Ref sig .tc := ⟨.hbm, 14, rfl⟩
abbrev main_call1_v1_0 : Ref sig .tc := ⟨.hbm, 15, rfl⟩
abbrev main_c_1 : Ref sig .tc := ⟨.hbm, 16, rfl⟩
abbrev main_v4 : Ref sig .tc := ⟨.hbm, 17, rfl⟩
abbrev main_v5 : Ref sig .tc := ⟨.hbm, 18, rfl⟩
abbrev main_c_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v3 : Ref sig .tc := ⟨.smem, 0, rfl⟩
abbrev main_v10 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_v3.idx, main_v10.idx], fun | 0 => main_v3.names | 1 => main_v10.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S32x2048_S32x1_0_0 : S32x2048.Slices ![0, 0] S32x1
  shapeCasts_S32x1_S32 : S32x1.ShapeCasts S32
  bcast_S_S32 : S_.BroadcastsInDim S32 (![] : Fin 0 → Fin S32.rank)
  bcast_S32_S32x1_0 : S32.BroadcastsInDim S32x1 (![0] : Fin 1 → Fin S32x1.rank)
  bitsLt_bf16_f32 : FTy.bits .bf16 < FTy.bits .f32
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  shapeCasts_S8x1024_S8x1x1024 : S8x1024.ShapeCasts S8x1x1024
  numel1_S1 : S1.numel = 1
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S2048x1024 : S1x1024.Broadcasts S2048x1024
  shapeCasts_S2048x1024_S1x2048x1024 : S2048x1024.ShapeCasts S1x2048x1024
  gather_S32_S32x1_S32_n_0_n_n_0_1_1_wf : GatherDims.WF S32 S32x1 S32 [] [0] [] [0] [] 1 ![1]
  gather_S32000x1024_S32x2048x1_S32x2048x1024_2_0_n_n_0_2_11024_wf : GatherDims.WF S32000x1024 S32x2048x1 S32x2048x1024 [2] [0] [] [0] [] 2 ![1, 1024]
  dot_S2048x1024_S1024x1024_S2048x1024_1_1_0_0_n_n_wf : DotDims.WF S2048x1024 S1024x1024 S2048x1024 [1] [1] [0] [0] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S32_S32x1_S32_n_0_n_n_0_1_1 : GatherDims S32 S32x1 S32 where
  offsetDims := []
  collapsedSliceDims := [0]
  operandBatchingDims := []
  startIndicesBatchingDims := []
  startIndexMap := [0]
  indexVectorDim := 1
  sliceSizes := ![1]
  wf := gather_S32_S32x1_S32_n_0_n_n_0_1_1_wf
def gather_S32000x1024_S32x2048x1_S32x2048x1024_2_0_n_n_0_2_11024 : GatherDims S32000x1024 S32x2048x1 S32x2048x1024 where
  offsetDims := [2]
  collapsedSliceDims := [0]
  operandBatchingDims := []
  startIndicesBatchingDims := []
  startIndexMap := [0]
  indexVectorDim := 2
  sliceSizes := ![1, 1024]
  wf := gather_S32000x1024_S32x2048x1_S32x2048x1024_2_0_n_n_0_2_11024_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev spec0_0 : Pipeline.WinSpec sig grid0.rank :=
  Pipeline.WinSpec.ofSpec (Memref.whole main_v18) S1x2048x1024.size reads0_0 false false 2 stage0_0 sem0_0 nbuf0_0 hstage0_0

abbrev spec0_1 : Pipeline.WinSpec sig grid0.rank :=
  Pipeline.WinSpec.ofSpec (Memref.whole main_v19) S1x1024x1024.size reads0_1 false false 2 stage0_1 sem0_1 nbuf0_1 hstage0_1

abbrev spec0_2 : Pipeline.WinSpec sig grid0.rank :=
  Pipeline.WinSpec.ofSpec (Memref.whole main_v20) S1x1x1024.size reads0_2 false false 2 stage0_2 sem0_2 nbuf0_2 hstage0_2

abbrev spec0_3 : Pipeline.WinSpec sig grid0.rank :=
  Pipeline.WinSpec.ofSpec (Memref.whole main_v21) S1x2048x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x2048x1024.size a ≤ S32x2048x1024.size a), EltTy.bits .bf16 = 32 ∨ (Rect.block (s := S32x2048x1024) S1x2048x1024.size (cc0_transform_0 k0_off1_inb numel1_S1 pf i) h).WholeWords (EltTy.packing .bf16)) ∧
  (∀ i : grid0.Coords, ∃ h : (∀ a, (cc0_transform_1 k0_off1_inb numel1_S1 pf i a + 1) * S1x1024x1024.size a ≤ S8x1024x1024.size a), EltTy.bits .bf16 = 32 ∨ (Rect.block (s := S8x1024x1024) S1x1024x1024.size (cc0_transform_1 k0_off1_inb numel1_S1 pf i) h).WholeWords (EltTy.packing .bf16)) ∧
  (∀ i : grid0.Coords, ∃ h : (∀ a, (cc0_transform_2 k0_off1_inb numel1_S1 pf i a + 1) * S1x1x1024.size a ≤ S8x1x1024.size a), EltTy.bits .f32 = 32 ∨ (Rect.block (s := S8x1x1024) S1x1x1024.size (cc0_transform_2 k0_off1_inb numel1_S1 pf i) h).WholeWords (EltTy.packing .f32)) ∧
  (∀ i : grid0.Coords, ∃ h : (∀ a, (cc0_transform_3 k0_off1_inb numel1_S1 pf i a + 1) * S1x2048x1024.size a ≤ S32x2048x1024.size a), EltTy.bits .f32 = 32 ∨ (Rect.block (s := S32x2048x1024) S1x2048x1024.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S32x2048 : Shape := ⟨2, ![32, 2048]⟩
abbrev S32000x1024 : Shape := ⟨2, ![32000, 1024]⟩
abbrev S8x1024x1024 : Shape := ⟨3, ![8, 1024, 1024]⟩
abbrev S8x1024 : Shape := ⟨2, ![8, 1024]⟩
abbrev S_ : Shape := ⟨0, ![]⟩
abbrev S32x2048x1 : Shape := ⟨3, ![32, 2048, 1]⟩
abbrev S32x2048x1024 : Shape := ⟨3, ![32, 2048, 1024]⟩
abbrev S32x1 : Shape := ⟨2, ![32, 1]⟩
abbrev S32 : Shape := ⟨1, ![32]⟩
abbrev S32x1024x1024 : Shape := ⟨3, ![32, 1024, 1024]⟩
abbrev S32x1024 : Shape := ⟨2, ![32, 1024]⟩
abbrev S32x1x1024 : Shape := ⟨3, ![32, 1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S32x2048, .i32⟩
  | .hbm, ⟨1, _⟩ => ⟨S32000x1024, .f32⟩
  | .hbm, ⟨2, _⟩ => ⟨S8x1024x1024, .f32⟩
  | .hbm, ⟨3, _⟩ => ⟨S8x1024, .f32⟩
  | .hbm, ⟨4, _⟩ => ⟨S_, .i32⟩
  | .hbm, ⟨5, _⟩ => ⟨S32x2048, .i32⟩
  | .hbm, ⟨6, _⟩ => ⟨S32x2048, .i1⟩
  | .hbm, ⟨7, _⟩ => ⟨S_, .i32⟩
  | .hbm, ⟨8, _⟩ => ⟨S32x2048, .i32⟩
  | .hbm, ⟨9, _⟩ => ⟨S32x2048, .i32⟩
  | .hbm, ⟨10, _⟩ => ⟨S32x2048, .i32⟩
  | .hbm, ⟨11, _⟩ => ⟨S32x2048x1, .i32⟩
  | .hbm, ⟨12, _⟩ => ⟨S32x2048x1024, .f32⟩
  | .hbm, ⟨13, _⟩ => ⟨S32x1, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S_, .i32⟩
  | .hbm, ⟨19, _⟩ => ⟨S32, .i32⟩
  | .hbm, ⟨20, _⟩ => ⟨S32, .i32⟩
  | .hbm, ⟨21, _⟩ => ⟨S32, .i32⟩
  | .hbm, ⟨22, _⟩ => ⟨S32x1, .i32⟩
  | .hbm, ⟨23, _⟩ => ⟨S32x1024x1024, .f32⟩
  | .hbm, ⟨24, _⟩ => ⟨S_, .i32⟩
  | .hbm, ⟨25, _⟩ => ⟨S32, .i32⟩
  | .hbm, ⟨26, _⟩ => ⟨S32, .i1⟩
  | .hbm, ⟨27, _⟩ => ⟨S_, .i32⟩
  | .hbm, ⟨28, _⟩ => ⟨S32, .i32⟩
  | .hbm, ⟨29, _⟩ => ⟨S32, .i32⟩
  | .hbm, ⟨30, _⟩ => ⟨S32, .i32⟩
  | .hbm, ⟨31, _⟩ => ⟨S32x1, .i32⟩
  | .hbm, ⟨32, _⟩ => ⟨S32x1024, .f32⟩
  | .hbm, ⟨33, _⟩ => ⟨S32x2048x1024, .f32⟩
  | .hbm, ⟨34, _⟩ => ⟨S32x1x1024, .f32⟩
  | .hbm, ⟨35, _⟩ => ⟨S32x2048x1024, .f32⟩
  | .hbm, ⟨36, _⟩ => ⟨S32x2048x1024, .f32⟩
  | _, _ => ⟨S32x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  slices_S32x2048_S32x1_0_0 : S32x2048.Slices ![0, 0] S32x1
  shapeCasts_S32x1_S32 : S32x1.ShapeCasts S32
  bcast_S_S32 : S_.BroadcastsInDim S32 (![] : Fin 0 → Fin S32.rank)
  bcast_S32_S32x1_0 : S32.BroadcastsInDim S32x1 (![0] : Fin 1 → Fin S32x1.rank)
  bcast_S32x1024_S32x1x1024_0_2 : S32x1024.BroadcastsInDim S32x1x1024 (![0, 2] : Fin 2 → Fin S32x1x1024.rank)
  bcast_S32x1x1024_S32x2048x1024_0_1_2 : S32x1x1024.BroadcastsInDim S32x2048x1024 (![0, 1, 2] : Fin 3 → Fin S32x2048x1024.rank)
  gather_S32000x1024_S32x2048x1_S32x2048x1024_2_0_n_n_0_2_11024_wf : GatherDims.WF S32000x1024 S32x2048x1 S32x2048x1024 [2] [0] [] [0] [] 2 ![1, 1024]
  gather_S8x1024x1024_S32x1_S32x1024x1024_12_0_n_n_0_1_110241024_wf : GatherDims.WF S8x1024x1024 S32x1 S32x1024x1024 [1, 2] [0] [] [0] [] 1 ![1, 1024, 1024]
  gather_S8x1024_S32x1_S32x1024_1_0_n_n_0_1_11024_wf : GatherDims.WF S8x1024 S32x1 S32x1024 [1] [0] [] [0] [] 1 ![1, 1024]
  dot_S32x2048x1024_S32x1024x1024_S32x2048x1024_2_2_1_1_0_0_wf : DotDims.WF S32x2048x1024 S32x1024x1024 S32x2048x1024 [2] [2] [1] [1] [0] [0]

variable [Facts₀]

def gather_S32000x1024_S32x2048x1_S32x2048x1024_2_0_n_n_0_2_11024 : GatherDims S32000x1024 S32x2048x1 S32x2048x1024 where
  offsetDims := [2]
  collapsedSliceDims := [0]
  operandBatchingDims := []
  startIndicesBatchingDims := []
  startIndexMap := [0]
  indexVectorDim := 2
  sliceSizes := ![1, 1024]
  wf := gather_S32000x1024_S32x2048x1_S32x2048x1024_2_0_n_n_0_2_11024_wf
def gather_S8x1024x1024_S32x1_S32x1024x1024_12_0_n_n_0_1_110241024 : GatherDims S8x1024x1024 S32x1 S32x1024x1024 where
  offsetDims := [1, 2]
  collapsedSliceDims := [0]
  operandBatchingDims := []
  startIndicesBatchingDims := []
  startIndexMap := [0]
  indexVectorDim := 1
  sliceSizes := ![1, 1024, 1024]
  wf := gather_S8x1024x1024_S32x1_S32x1024x1024_12_0_n_n_0_1_110241024_wf
def gather_S8x1024_S32x1_S32x1024_1_0_n_n_0_1_11024 : GatherDims S8x1024 S32x1 S32x1024 where
  offsetDims := [1]
  collapsedSliceDims := [0]
  operandBatchingDims := []
  startIndicesBatchingDims := []
  startIndexMap := [0]
  indexVectorDim := 1
  sliceSizes := ![1, 1024]
  wf := gather_S8x1024_S32x1_S32x1024_1_0_n_n_0_1_11024_wf
def dot_S32x2048x1024_S32x1024x1024_S32x2048x1024_2_2_1_1_0_0 : DotDims S32x2048x1024 S32x1024x1024 S32x2048x1024 where
  lhsContracting := [2]
  rhsContracting := [2]
  lhsNonContracting := [1]
  rhsNonContracting := [1]
  lhsBatch := [0]
  rhsBatch := [0]
  wf := dot_S32x2048x1024_S32x1024x1024_S32x2048x1024_2_2_1_1_0_0_wf

class Facts : Prop extends Facts₀ where

variable [Facts]
-- ==== Proof.LibFirstColumn.lean ====
/-
  Column 0 of a matrix as a vector, read at an index.

  jnp's `x[:, 0]` of a matrix `x : [n, m]` lowers to a `stablehlo.slice` of the column `[0:n, 0:1]`, an `[n, 1]` array, and a
  `stablehlo.reshape` of it to a vector of `n`. Entry `k` of that vector is `x[k, 0]`: the reshape keeps the row-major
  position, which for a one-column array is the row, and the slice starts at row 0, column 0.
-/
import Idealize.ShloMosaic.Lib.ValueIdx
import Idealize.ShloMosaic.Lib.Pipeline.Value

noncomputable section

namespace Idealize.ShloMosaic.FirstColumn

open Idealize.ShloMosaic Idealize.ShloMosaic.ValueIdx

variable {α : Type}

/-- THE FIRST COLUMN READ AT `k`: the matrix at `(k, 0)`. -/
theorem col0_apply {n m : Nat} (hm : 0 < m) (x : (⟨2, ![n, m]⟩ : Shape).Idx → α)
    (hs : (⟨2, ![n, m]⟩ : Shape).Slices ![0, 0] ⟨2, ![n, 1]⟩) (hc : (⟨2, ![n, 1]⟩ : Shape).ShapeCasts ⟨1, ![n]⟩)
    (j : (⟨1, ![n]⟩ : Shape).Idx) :
    shapeCast ⟨1, ![n]⟩ (extractStridedSlice ⟨2, ![n, 1]⟩ ![0, 0] x hs) hc j = x (ix2 (j 0) (⟨0, hm⟩ : Fin m)) := by
  rw [shapeCast_apply _ hc j (ix2 (j 0) (0 : Fin 1)) (by
    rw [Shape.rowMajor_val_two, Shape.rowMajor_val_one]
    show (j 0).val * 1 + 0 = (j 0).val
    omega)]
  exact extractStridedSlice_apply ![0, 0] x hs (ix2 (j 0) (0 : Fin 1)) (ix2 (j 0) (⟨0, hm⟩ : Fin m)) (fun a => match a with
    | ⟨0, _⟩ => by show (j 0).val = 0 + (j 0).val; omega
    | ⟨1, _⟩ => by show 0 = 0 + 0; rfl)

end Idealize.ShloMosaic.FirstColumn

end
-- ==== Proof.PreDecode.lean ====
/-
  The added conjunct of the precondition, decoded.

  The precondition is a conjunction of five `jnp.all`s; the last two say of the vector of first tokens
  `sequences[:, 0]` (a slice of column 0 reshaped to a vector of 32 words) that every entry is at least 0 and below 8,
  compared as signed words. A conjunction that is 1 has every conjunct 1, and an `and`-reduction to one word that is 1
  had a 1 at every index, so each first token `t` has `0 ≤ t < 8` as a signed integer: it names one of the 8
  language experts.
-/
import proofs.«412761_j22479858827436_3_alg».proof.Pre_finite_inputs
import Idealize.ShloMosaic.Lib.ReduceAll
import Idealize.ShloMosaic.Lib.Affine
import Idealize.ShloMosaic.Lib.ValueIdx
import proofs.«412761_j22479858827436_3_alg».proof.Proof.LibFirstColumn

noncomputable section

namespace Cert.PreDecode

open Idealize.ShloMosaic Cert.Pre_finite_inputs

variable [hF : Cert.Pre_finite_inputs.Facts] {F : FTy → Type} [FloatOps F]

/-- The scalar shape has one index. -/
instance : Subsingleton S_.Idx := ⟨fun a b => funext fun d => d.elim0⟩

/-- The vector of first tokens, as the predicate (and both programs) compute it: column 0 sliced out and reshaped. -/
abbrev firstTok (seq : IVec S32x2048 32) : IVec S32 32 :=
  shapeCast S32 (extractStridedSlice S32x1 ![0, 0] seq hF.slices_S32x2048_S32x1_0_0) hF.shapeCasts_S32x1_S32

/-- Under the precondition every first token is a language id: at least 0 and below 8, read signed. -/
theorem firstTok_range (seq : IVec S32x2048 32) (E : FVec F S32000x1024 .f32) (W : FVec F S8x1024x1024 .f32)
    (b : FVec F S8x1024 .f32) (h : fn (F := F) seq E W b = fun _ => 1#1) (j : S32.Idx) :
    0 ≤ (firstTok seq j).toInt ∧ (firstTok seq j).toInt < 8 := by
  have e := congrFun h ValueIdx.ix0
  simp only [fn, fn_part1, andi] at e
  rw [IntOp.andi_eq_one, IntOp.andi_eq_one] at e
  obtain ⟨⟨-, hge⟩, hlt⟩ := e
  have h0 := Host.reduce_andi_all _ _ _ _ _ hge j
  have h8 := Host.reduce_andi_all _ _ _ _ _ hlt j
  simp only [cmpi, broadcastInDim, constantI] at h0 h8
  rw [IntOp.cmpi_sge] at h0
  rw [IntOp.cmpi_slt] at h8
  exact ⟨h0, h8⟩

/-- The same said of the token array itself: under the precondition `sequences[n, 0]` is a language id for every `n`. -/
theorem first_token_range (seq : IVec S32x2048 32) (E : FVec F S32000x1024 .f32) (W : FVec F S8x1024x1024 .f32)
    (b : FVec F S8x1024 .f32) (h : fn (F := F) seq E W b = fun _ => 1#1) (n : Fin 32) :
    0 ≤ (seq (ValueIdx.ix2 n (0 : Fin 2048))).toInt ∧ (seq (ValueIdx.ix2 n (0 : Fin 2048))).toInt < 8 := by
  have hr := firstTok_range seq E W b h (ValueIdx.ix1 n)
  have e : firstTok seq (ValueIdx.ix1 n) = seq (ValueIdx.ix2 n (0 : Fin 2048)) :=
    FirstColumn.col0_apply (by norm_num) seq hF.slices_S32x2048_S32x1_0_0 hF.shapeCasts_S32x1_S32 (ValueIdx.ix1 n)
  rwa [e] at hr

end Cert.PreDecode

end
-- ==== Proof.LibArgsort.lean ====
/-
  jnp's argsort of a vector, read entry by entry.

  `jnp.argsort(x)` prints as a `stablehlo.sort` of two operands along the one axis — the keys `x` and an `iota` of position
  words — of which the second result is returned. The sort moves both operands by ONE self-map of the positions (the
  stable sorting permutation under the comparator), so entry `k` of the result is the word of the position that lands
  at `k`. That self-map is a bijection: every entry is a position of the vector, and every position is some entry.
-/
import Idealize.ShloMosaic.Lib.SortFacts

noncomputable section

namespace Idealize.ShloMosaic.Argsort

open Idealize.ShloMosaic

variable {α : Type} {n w : Nat}

/-- The position whose key the argsort puts at `k`: the stable sorting permutation of the (key, position word) pairs
    under the comparator. -/
def src (cmp : α × BitVec w → α × BitVec w → BitVec 1) (x : (⟨1, ![n]⟩ : Shape).Idx → α) (k : Fin n) : Fin n :=
  sortedFrom (fun a b => cmp (x (Shape.Idx.ofFin a), BitVec.ofNat w a.val) (x (Shape.Idx.ofFin b), BitVec.ofNat w b.val) == 1#1) k

/-- Entry `k` of the argsort is the word of the position that lands at `k`. -/
theorem argsort_apply (cmp : α × BitVec w → α × BitVec w → BitVec 1) (x : (⟨1, ![n]⟩ : Shape).Idx → α) (k : Fin n) :
    (Host.sort2 ⟨1, ![n]⟩ 0 cmp x (iotaInDim ⟨1, ![n]⟩ w 0)).2 (Shape.Idx.ofFin k) = BitVec.ofNat w (src cmp x k).val := by
  unfold Host.sort2 src
  simp [iotaInDim]

/-- The keys the argsort's sort returns beside it: entry `k` is the key at the position that lands at `k`. -/
theorem sorted_keys_apply (cmp : α × BitVec w → α × BitVec w → BitVec 1) (x : (⟨1, ![n]⟩ : Shape).Idx → α) (k : Fin n) :
    (Host.sort2 ⟨1, ![n]⟩ 0 cmp x (iotaInDim ⟨1, ![n]⟩ w 0)).1 (Shape.Idx.ofFin k) = x (Shape.Idx.ofFin (src cmp x k)) := by
  unfold Host.sort2 src
  simp [iotaInDim]

/-- No position lands twice, -/
theorem src_injective (cmp : α × BitVec w → α × BitVec w → BitVec 1) (x : (⟨1, ![n]⟩ : Shape).Idx → α) :
    Function.Injective (src cmp x) := sortedFrom_injective _

/-- and every position lands somewhere. -/
theorem src_surjective (cmp : α × BitVec w → α × BitVec w → BitVec 1) (x : (⟨1, ![n]⟩ : Shape).Idx → α) :
    Function.Surjective (src cmp x) := sortedFrom_surjective _

/-- Every entry of the argsort, as a natural number, is a position of the vector (the position words do not wrap). -/
theorem argsort_toNat (hn : n ≤ 2 ^ w) (cmp : α × BitVec w → α × BitVec w → BitVec 1) (x : (⟨1, ![n]⟩ : Shape).Idx → α)
    (k : Fin n) :
    ((Host.sort2 ⟨1, ![n]⟩ 0 cmp x (iotaInDim ⟨1, ![n]⟩ w 0)).2 (Shape.Idx.ofFin k)).toNat = (src cmp x k).val := by
  rw [argsort_apply, BitVec.toNat_ofNat, Nat.mod_eq_of_lt (lt_of_lt_of_le (src cmp x k).isLt hn)]

/-- Every position `r` is the entry of the argsort at some `k`. -/
theorem argsort_onto (hn : n ≤ 2 ^ w) (cmp : α × BitVec w → α × BitVec w → BitVec 1) (x : (⟨1, ![n]⟩ : Shape).Idx → α)
    (r : Fin n) :
    ∃ k : Fin n, ((Host.sort2 ⟨1, ![n]⟩ 0 cmp x (iotaInDim ⟨1, ![n]⟩ w 0)).2 (Shape.Idx.ofFin k)).toNat = r.val := by
  obtain ⟨k, hk⟩ := src_surjective cmp x r
  exact ⟨k, by rw [argsort_toNat hn, hk]⟩

end Idealize.ShloMosaic.Argsort

end
-- ==== Proof.Words.lean ====
/-
  Facts about 32-bit words read as signed integers, for indices that are known to be small and non-negative.

  jnp normalises an index before it gathers with it: a negative index has the axis length added (`select (i < 0) (i + n) i`),
  and `jnp.clip(i, 0, n - 1)` is `min (n - 1) (max 0 i)`. On a word whose signed value already lies in `[0, n)` neither
  does anything, and its signed and unsigned readings agree.
-/
import Idealize.ShloMosaic.PureOps
import Idealize.ShloMosaic.Lib.Affine

namespace Cert.Words

open Idealize.ShloMosaic

/-- A word whose signed value is in `[0, n)`, `n` below 2³¹, has that value as its unsigned one. -/
theorem toNat_of_range (w : BitVec 32) (n : Nat) (hn : n < 2 ^ 31) (h0 : 0 ≤ w.toInt) (hlt : w.toInt < n) :
    w.toNat < n ∧ w.toInt = w.toNat := by
  have h32 := w.isLt
  rw [BitVec.toInt_eq_toNat_cond] at h0 hlt ⊢
  split at h0 <;> rename_i hc
  · rw [if_pos hc] at hlt; exact ⟨by omega, if_pos hc⟩
  · omega

/-- The signed value of a small position word is the position. -/
theorem toInt_ofNat (k : Nat) (hk : k < 2 ^ 31) : (BitVec.ofNat 32 k).toInt = k := by
  rw [BitVec.toInt_eq_toNat_cond, BitVec.toNat_ofNat, Nat.mod_eq_of_lt (by omega), if_pos (by omega)]

/-- `jnp.clip(w, 0, 7)` of a word already in `[0, 8)` is the word. -/
theorem clip7 (w : BitVec 32) (h0 : 0 ≤ w.toInt) (h8 : w.toInt < 8) : IntOp.minsi 7#32 (IntOp.maxsi 0#32 w) = w := by
  have z : (0#32 : BitVec 32).toInt = 0 := by decide
  have s : (7#32 : BitVec 32).toInt = 7 := by decide
  have hmax : IntOp.maxsi 0#32 w = w := by
    unfold IntOp.maxsi
    rw [if_neg]
    rw [BitVec.slt_iff_toInt_lt, z]; omega
  rw [hmax]
  unfold IntOp.minsi
  rw [if_neg]
  rw [BitVec.slt_iff_toInt_lt, s]; omega

/-- The negative-index wrap by `n` is not taken on a word that is not negative. -/
theorem wrap_of_nonneg (w n : BitVec 32) (h0 : 0 ≤ w.toInt) :
    Scalar.select (IntOp.cmpi .slt w 0#32) (IntOp.addi w n) w = w := by
  have z : (0#32 : BitVec 32).toInt = 0 := by decide
  unfold Scalar.select
  rw [if_neg]
  intro h
  have h' := IntOp.cmpi_slt.mp h
  rw [z] at h'; omega

end Cert.Words
-- ==== Proof.TablesBits.lean ====
/-
  The two tables the kernel's index maps read, entry by entry.

  Before the pallas_call the host computes, from the first token of every sequence, the language ids clipped into
  0 … 7 (`lang`), their stable argsort (`perm`: the visiting order, which puts the sequences of one language next to one
  another) and the language ids taken in that order. These two vectors of 32 words are the prefetched tables. Entry `k`
  of the first is the number of the sequence visited at point `k` — the argsort is a permutation of the 32 sequences —,
  and entry `k` of the second is that sequence's clipped first token: the take indexes with a position word, which is
  neither negative nor past the end, so it reads exactly there. Where the first tokens are language ids (at least 0,
  below 8) the clip changes nothing. The sort itself is never evaluated: all that is used of it is that it reads its
  operands through one bijection of the positions.
-/
import proofs.«412761_j22479858827436_3_alg».proof.Proof.Gen.Kernel.Frame
import proofs.«412761_j22479858827436_3_alg».proof.Proof.LibArgsort
import proofs.«412761_j22479858827436_3_alg».proof.Proof.Words
import proofs.«412761_j22479858827436_3_alg».proof.Proof.LibFirstColumn
import Idealize.ShloMosaic.Lib.StableHlo.Predicate
import Idealize.ShloMosaic.Lib.StableHlo.Run

set_option maxRecDepth 16384

noncomputable section

namespace Cert.Kernel.Tables

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The token array as launched (the program runs on one device). -/
abbrev seq0 : IVec S32x2048 32 := m (((0 : Dev nD) : Thread nD τ).loc main_arg0)

/-- The first token of every sequence. -/
def tok : IVec S32 32 :=
  shapeCast S32 (extractStridedSlice S32x1 ![0, 0] (seq0 m) slices_S32x2048_S32x1_0_0) shapeCasts_S32x1_S32

/-- The language ids the kernel uses: the first tokens clipped into 0 … 7. -/
def lang : IVec S32 32 :=
  minsi (broadcastInDim S32 ![] bcast_S_S32 (constantI S_ 32 7#32))
    (maxsi (broadcastInDim S32 ![] bcast_S_S32 (constantI S_ 32 0#32)) (tok m))

/-- The visiting order: the stable argsort of the language ids. -/
def perm : IVec S32 32 := (Host.sort2 S32 0 comparator_i32_i32_d0 (lang m) (iotaInDim S32 32 0)).2

/-- The first prefetched table is the visiting order. -/
theorem tbl0_eq : (tbl m 0 : IVec S32 32) = perm m := by
  unfold tbl
  show V m 0 main_v3 = _
  dsimp only [V]
  simp only [hostOps0, hostOps0_1, hostOps0_2, hostOps0_3, List.flatten_cons, List.flatten_nil, List.append_nil,
    List.cons_append, List.nil_append]
  after_results
  unfold perm lang tok
  rfl

/-- The visiting order as the index column of the second table's gather: negative entries wrapped by 32 (none is). -/
def permCol : IVec S32x1 32 :=
  broadcastInDim S32x1 ![0] bcast_S32_S32x1_0
    (select (cmpi .slt (perm m) (broadcastInDim S32 ![] bcast_S_S32 (constantI S_ 32 0#32)))
      (addi (perm m) (broadcastInDim S32 ![] bcast_S_S32 (constantI S_ 32 32#32))) (perm m))

set_option maxHeartbeats 2000000 in
/-- The second prefetched table is the language ids taken in visiting order. -/
theorem tbl1_eq : (tbl m 1 : IVec S32 32) = Host.gather gather_S32_S32x1_S32_n_0_n_n_0_1_1 (lang m) (permCol m) := by
  unfold tbl
  show V m 0 main_v10 = _
  dsimp only [V]
  simp only [hostOps0, hostOps0_1, hostOps0_2, hostOps0_3, List.flatten_cons, List.flatten_nil, List.append_nil,
    List.cons_append, List.nil_append]
  unfold permCol perm lang tok
  after_results_simp <;> rfl

/-! ## The tables entry by entry -/

/-- The sequence visited at point `k`: the position whose language id the stable sort puts at `k`. -/
def src (k : Fin 32) : Fin 32 := Argsort.src comparator_i32_i32_d0 (lang m) k

/-- Entry `k` of the visiting order is the word of the sequence visited at `k`. -/
theorem perm_apply (k : Fin 32) : perm m (Shape.Idx.ofFin k) = BitVec.ofNat 32 (src m k).val := by
  unfold perm src
  exact Argsort.argsort_apply comparator_i32_i32_d0 (lang m) k

theorem src_small (k : Fin 32) : (src m k).val < 2 ^ 31 := lt_trans (src m k).isLt (by norm_num)

/-- Every sequence is visited, -/
theorem src_surjective : Function.Surjective (src m) := Argsort.src_surjective comparator_i32_i32_d0 (lang m)
/-- and none twice. -/
theorem src_injective : Function.Injective (src m) := Argsort.src_injective comparator_i32_i32_d0 (lang m)

/-- As a natural number, entry `k` of the first table is the sequence visited at `k`. -/
theorem tbl0_toNat (k : Fin 32) : (tbl m 0 (Shape.Idx.ofFin k) : BitVec 32).toNat = (src m k).val := by
  refine (congrArg BitVec.toNat ((congrFun (tbl0_eq m) (Shape.Idx.ofFin k)).trans (perm_apply m k))).trans ?_
  rw [BitVec.toNat_ofNat]
  exact Nat.mod_eq_of_lt (lt_trans (src m k).isLt (by norm_num))

/-- The gather's index column at row `k` is that word: a position word is not negative, so the wrap is not taken. -/
theorem permCol_apply (k : Fin 32) : permCol m (StableHlo.Predicate.ixP k) = BitVec.ofNat 32 (src m k).val := by
  unfold permCol
  rw [StableHlo.Predicate.bcast_col1]
  simp only [select, cmpi, addi, broadcastInDim, constantI]
  rw [perm_apply]
  exact Cert.Words.wrap_of_nonneg _ _ (by rw [Cert.Words.toInt_ofNat _ (src_small m k)]; omega)

/-- Entry `k` of the second table is the language id of the sequence visited at `k`: the take reads inside the vector. -/
theorem tbl1_apply (k : Fin 32) : (tbl m 1 (Shape.Idx.ofFin k) : BitVec 32) = lang m (Shape.Idx.ofFin (src m k)) := by
  have hg := StableHlo.Predicate.gather_take (α := BitVec 32) (N := 32) (n := 32) (w := 32)
    gather_S32_S32x1_S32_n_0_n_n_0_1_1 rfl rfl rfl rfl (lang m) (permCol m) k (by norm_num)
  refine (congrFun (tbl1_eq m) (Shape.Idx.ofFin k)).trans (hg.trans ?_)
  refine congrArg (lang m) (congrArg Shape.Idx.ofFin (Fin.ext ?_))
  show min (permCol m (StableHlo.Predicate.ixP k)).toInt.toNat (32 - 1) = (src m k).val
  rw [permCol_apply, Cert.Words.toInt_ofNat _ (src_small m k), Int.toNat_natCast]
  have := (src m k).isLt
  omega

/-! ## Under the precondition: the first tokens are language ids -/

/-- The vector of first tokens at `j` is the token array at `(j, 0)`. -/
theorem tok_apply (j : S32.Idx) : tok m j = seq0 m (ValueIdx.ix2 (j 0) (0 : Fin 2048)) := by
  unfold tok
  exact FirstColumn.col0_apply (by norm_num) (seq0 m) slices_S32x2048_S32x1_0_0 shapeCasts_S32x1_S32 j

/-- The precondition's conjunct on the token array's first column, said of the vector of first tokens. -/
theorem range_tok
    (hs : ∀ n : Fin 32, 0 ≤ (seq0 m (ValueIdx.ix2 n (0 : Fin 2048))).toInt ∧ (seq0 m (ValueIdx.ix2 n (0 : Fin 2048))).toInt < 8)
    (j : S32.Idx) : 0 ≤ (tok m j).toInt ∧ (tok m j).toInt < 8 := by
  rw [tok_apply]; exact hs (j 0)

/-- The clip does nothing to a language id. -/
theorem lang_apply (hr : ∀ j : S32.Idx, 0 ≤ (tok m j).toInt ∧ (tok m j).toInt < 8) (j : S32.Idx) : lang m j = tok m j := by
  unfold lang
  simp only [minsi, maxsi, broadcastInDim, constantI]
  exact Cert.Words.clip7 _ (hr j).1 (hr j).2

/-- A language id names one of the 8 layers. -/
theorem tok_lt (hr : ∀ j : S32.Idx, 0 ≤ (tok m j).toInt ∧ (tok m j).toInt < 8) (j : S32.Idx) : (tok m j).toNat < 8 :=
  (Cert.Words.toNat_of_range _ 8 (by norm_num) (hr j).1 (hr j).2).1

/-- So entry `k` of the second table is the first token of the sequence visited at `k`. -/
theorem tbl1_tok (hr : ∀ j : S32.Idx, 0 ≤ (tok m j).toInt ∧ (tok m j).toInt < 8) (k : Fin 32) :
    (tbl m 1 (Shape.Idx.ofFin k) : BitVec 32) = tok m (Shape.Idx.ofFin (src m k)) :=
  (tbl1_apply m k).trans (lang_apply m hr _)

end Cert.Kernel.Tables

end
-- ==== Proof.IndexMapsBits.lean ====
/-
  The windows' index maps in closed form, and the pipeline's side condition.

  Each of the four index maps loads one table word at the grid point's position and returns the block index
  (word, 0, 0): the embeddings' and the result's maps read the visiting order, the weights' and the biases' maps read
  the language ids in visiting order. So at point `k` the embeddings' and the result's block is the slab of the sequence
  visited at `k`, and the weights' and the biases' block is that of the sequence's language. A sequence number is below
  32 and a language id below 8, so every block lies inside its array; and every block holds whole rows of its array,
  so each transfer moves whole words.
-/
import proofs.«412761_j22479858827436_3_alg».proof.Proof.TablesBits

set_option maxRecDepth 16384

noncomputable section

namespace Cert.Kernel.IndexMaps

open Cert.Kernel Cert.Kernel.Gen Cert.Kernel.Tables
open Idealize.ShloMosaic Idealize.ShloMosaic.TcCoe Idealize.SL.Sem

variable {F : FTy → Type} [FloatOps F]
variable (m : (ℓ : Loc nD τ sig) → Buf (Elt F) ℓ)

/-- The grid has one axis of 32 points: a setting of its coordinates is a position of the tables. -/
abbrev pos (i : grid0.Coords) : Fin 32 := ⟨(i 0).val, (i 0).isLt⟩

/-- The unit rectangle at offset `k` of a table of 32 words holds the one index `k`. -/
theorem unit_emb (k : Fin 32) (off : Fin 1 → Nat) (hoff : off 0 = k.val) (inb : ∀ a, off a + S1.size a ≤ S32.size a)
    (h1 : 0 < S1.numel) : (Rect.unit (s := S32) off S1.size inb).emb (Shape.Idx.first h1) = Shape.Idx.ofFin k := by
  funext a
  obtain rfl : a = 0 := Subsingleton.elim _ _
  apply Fin.ext
  show off 0 + 1 * (Shape.Idx.first h1 (0 : Fin 1)).val = k.val
  have : (Shape.Idx.first h1 (0 : Fin 1)).val = 0 := by
    have := (Shape.Idx.first h1 (0 : Fin 1)).isLt
    have e : S1.size (0 : Fin 1) = 1 := by decide
    omega
  rw [this, hoff]; omega

/-- The offset an index map loads a table at is the point's position: the position word does not wrap. -/
theorem off_eq (i : grid0.Coords) : (![(Scalar.indexCast (BitVec.ofNat 32 (i 0).val)).toNat] : Fin 1 → Nat) 0 = (pos i).val := by
  show (BitVec.ofNat 32 (i 0).val).toNat = (i 0).val
  have h : (i 0).val < 32 := (i 0).isLt
  rw [BitVec.toNat_ofNat]
  exact Nat.mod_eq_of_lt (by omega)

/-- The word an index map reads from the first table at grid coordinates `i` is its entry at the point's position, -/
theorem word0 (i : grid0.Coords) :
    ((tbl m).at 0 (Rect.unit (s := S32) ![(Scalar.indexCast (BitVec.ofNat 32 (i 0).val)).toNat] S1.size (k0_off1_inb i)) numel1_S1 : BitVec 32)
      = tbl m 0 (Shape.Idx.ofFin (pos i)) :=
  congrArg (tbl m 0) (unit_emb (pos i) _ (off_eq i) _ _)

/-- and likewise from the second. -/
theorem word1 (i : grid0.Coords) :
    ((tbl m).at 1 (Rect.unit (s := S32) ![(Scalar.indexCast (BitVec.ofNat 32 (i 0).val)).toNat] S1.size (k0_off1_inb i)) numel1_S1 : BitVec 32)
      = tbl m 1 (Shape.Idx.ofFin (pos i)) :=
  congrArg (tbl m 1) (unit_emb (pos i) _ (off_eq i) _ _)

/-- The embeddings' and the result's index maps: block (sequence visited at the point, 0, 0). -/
theorem map0 (i : grid0.Coords) : cc0_transform_0 k0_off1_inb numel1_S1 (tbl m) i = ![(src m (pos i)).val, 0, 0] := by
  refine (congrArg (fun w : BitVec 32 => (![w.toNat, 0, 0] : Fin 3 → Nat)) (word0 m i)).trans ?_
  show (![(tbl m 0 (Shape.Idx.ofFin (pos i)) : BitVec 32).toNat, 0, 0] : Fin 3 → Nat) = _
  rw [tbl0_toNat]

theorem map3 (i : grid0.Coords) : cc0_transform_3 k0_off1_inb numel1_S1 (tbl m) i = ![(src m (pos i)).val, 0, 0] := by
  refine (congrArg (fun w : BitVec 32 => (![w.toNat, 0, 0] : Fin 3 → Nat)) (word0 m i)).trans ?_
  show (![(tbl m 0 (Shape.Idx.ofFin (pos i)) : BitVec 32).toNat, 0, 0] : Fin 3 → Nat) = _
  rw [tbl0_toNat]

/-- The weights' and the biases' index maps: block (language id of that sequence, 0, 0). -/
theorem map1 (hr : ∀ j : S32.Idx, 0 ≤ (tok m j).toInt ∧ (tok m j).toInt < 8) (i : grid0.Coords) :
    cc0_transform_1 k0_off1_inb numel1_S1 (tbl m) i = ![(tok m (Shape.Idx.ofFin (src m (pos i)))).toNat, 0, 0] := by
  refine (congrArg (fun w : BitVec 32 => (![w.toNat, 0, 0] : Fin 3 → Nat)) (word1 m i)).trans ?_
  show (![(tbl m 1 (Shape.Idx.ofFin (pos i)) : BitVec 32).toNat, 0, 0] : Fin 3 → Nat) = _
  rw [tbl1_tok m hr]

theorem map2 (hr : ∀ j : S32.Idx, 0 ≤ (tok m j).toInt ∧ (tok m j).toInt < 8) (i : grid0.Coords) :
    cc0_transform_2 k0_off1_inb numel1_S1 (tbl m) i = ![(tok m (Shape.Idx.ofFin (src m (pos i)))).toNat, 0, 0] := by
  refine (congrArg (fun w : BitVec 32 => (![w.toNat, 0, 0] : Fin 3 → Nat)) (word1 m i)).trans ?_
  show (![(tbl m 1 (Shape.Idx.ofFin (pos i)) : BitVec 32).toNat, 0, 0] : Fin 3 → Nat) = _
  rw [tbl1_tok m hr]

/-- THE PIPELINE'S SIDE CONDITION: every block the index maps name lies inside its array — a sequence number is
    below 32 and a language id below 8 — and every transfer moves whole rows of its array. -/
theorem ok (hr : ∀ j : S32.Idx, 0 ≤ (tok m j).toInt ∧ (tok m j).toInt < 8) : Ok m := by
  refine ⟨fun i => ?_, fun i => ?_, fun i => ?_, fun i => ?_⟩
  · rw [map0]
    have hk := (src m (pos i)).isLt
    refine ⟨fun a => ?_, Or.inr (Or.inr ⟨by decide, rfl, rfl, rfl⟩)⟩
    fin_cases a <;> simp [S1x2048x1024, S32x2048x1024] <;> omega
  · rw [map1 m hr]
    have hk := tok_lt m hr (Shape.Idx.ofFin (src m (pos i)))
    refine ⟨fun a => ?_, Or.inr (Or.inr ⟨by decide, rfl, rfl, rfl⟩)⟩
    fin_cases a <;> simp [S1x1024x1024, S8x1024x1024] <;> omega
  · rw [map2 m hr]
    have hk := tok_lt m hr (Shape.Idx.ofFin (src m (pos i)))
    refine ⟨fun a => ?_, Or.inl rfl⟩
    fin_cases a <;> simp [S1x1x1024, S8x1x1024] <;> omega
  · rw [map3]
    have hk := (src m (pos i)).isLt
    refine ⟨fun a => ?_, Or.inl rfl⟩
    fin_cases a <;> simp [S1x2048x1024, S32x2048x1024] <;> omega

end Cert.Kernel.IndexMaps

end
-- ==== Proof.Tables.lean ====
/-
  The two tables the kernel's index maps read, entry by entry.

  Before the pallas_call the host computes, from the first token of every sequence, the language ids clipped into
  0 … 7 (`lang`), their stable argsort (`perm`: the visiting order, which puts the sequences of one language next to one
  another) and the language ids taken in that order. These two vectors of 32 words are the prefetched tables. Entry `k`
  of the first is the number of the sequence visited at point `k` — the argsort is a permutation of the 32 sequences —,
  and entry `k` of the second is that sequence's clipped first token: the take indexes with a position word, which is
  neither negative nor past the end, so it reads exactly there. Where the first tokens are language ids (at least 0,
  below 8) the clip changes nothing. The sort itself is never evaluated: all that is used of it is that it reads its
  operands through one bijection of the positions.
-/
import proofs.«412761_j22479858827436_3_alg».proof.Proof.Gen.KernelIdeal.Frame
import proofs.«412761_j22479858827436_3_alg».proof.Proof.LibArgsort
import proofs.«412761_j22479858827436_3_alg».proof.Proof.Words
import proofs.«412761_j22479858827436_3_alg».proof.Proof.LibFirstColumn
import Idealize.ShloMosaic.Lib.StableHlo.Predicate
import Idealize.ShloMosaic.Lib.StableHlo.Run

set_option maxRecDepth 16384

noncomputable section

namespace Cert.KernelIdeal.Tables

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The token array as launched (the program runs on one device). -/
abbrev seq0 : IVec S32x2048 32 := m (((0 : Dev nD) : Thread nD τ).loc main_arg0)

/-- The first token of every sequence. -/
def tok : IVec S32 32 :=
  shapeCast S32 (extractStridedSlice S32x1 ![0, 0] (seq0 m) slices_S32x2048_S32x1_0_0) shapeCasts_S32x1_S32

/-- The language ids the kernel uses: the first tokens clipped into 0 … 7. -/
def lang : IVec S32 32 :=
  minsi (broadcastInDim S32 ![] bcast_S_S32 (constantI S_ 32 7#32))
    (maxsi (broadcastInDim S32 ![] bcast_S_S32 (constantI S_ 32 0#32)) (tok m))

/-- The visiting order: the stable argsort of the language ids. -/
def perm : IVec S32 32 := (Host.sort2 S32 0 comparator_i32_i32_d0 (lang m) (iotaInDim S32 32 0)).2

/-- The first prefetched table is the visiting order. -/
theorem tbl0_eq : (tbl m 0 : IVec S32 32) = perm m := by
  unfold tbl
  show V m 0 main_v3 = _
  dsimp only [V]
  simp only [hostOps0, hostOps0_1, hostOps0_2, hostOps0_3, List.flatten_cons, List.flatten_nil, List.append_nil,
    List.cons_append, List.nil_append]
  after_results
  unfold perm lang tok
  rfl

/-- The visiting order as the index column of the second table's gather: negative entries wrapped by 32 (none is). -/
def permCol : IVec S32x1 32 :=
  broadcastInDim S32x1 ![0] bcast_S32_S32x1_0
    (select (cmpi .slt (perm m) (broadcastInDim S32 ![] bcast_S_S32 (constantI S_ 32 0#32)))
      (addi (perm m) (broadcastInDim S32 ![] bcast_S_S32 (constantI S_ 32 32#32))) (perm m))

set_option maxHeartbeats 2000000 in
/-- The second prefetched table is the language ids taken in visiting order. -/
theorem tbl1_eq : (tbl m 1 : IVec S32 32) = Host.gather gather_S32_S32x1_S32_n_0_n_n_0_1_1 (lang m) (permCol m) := by
  unfold tbl
  show V m 0 main_v10 = _
  dsimp only [V]
  simp only [hostOps0, hostOps0_1, hostOps0_2, hostOps0_3, List.flatten_cons, List.flatten_nil, List.append_nil,
    List.cons_append, List.nil_append]
  unfold permCol perm lang tok
  after_results_simp <;> rfl

/-! ## The tables entry by entry -/

/-- The sequence visited at point `k`: the position whose language id the stable sort puts at `k`. -/
def src (k : Fin 32) : Fin 32 := Argsort.src comparator_i32_i32_d0 (lang m) k

/-- Entry `k` of the visiting order is the word of the sequence visited at `k`. -/
theorem perm_apply (k : Fin 32) : perm m (Shape.Idx.ofFin k) = BitVec.ofNat 32 (src m k).val := by
  unfold perm src
  exact Argsort.argsort_apply comparator_i32_i32_d0 (lang m) k

theorem src_small (k : Fin 32) : (src m k).val < 2 ^ 31 := lt_trans (src m k).isLt (by norm_num)

/-- Every sequence is visited, -/
theorem src_surjective : Function.Surjective (src m) := Argsort.src_surjective comparator_i32_i32_d0 (lang m)
/-- and none twice. -/
theorem src_injective : Function.Injective (src m) := Argsort.src_injective comparator_i32_i32_d0 (lang m)

/-- As a natural number, entry `k` of the first table is the sequence visited at `k`. -/
theorem tbl0_toNat (k : Fin 32) : (tbl m 0 (Shape.Idx.ofFin k) : BitVec 32).toNat = (src m k).val := by
  refine (congrArg BitVec.toNat ((congrFun (tbl0_eq m) (Shape.Idx.ofFin k)).trans (perm_apply m k))).trans ?_
  rw [BitVec.toNat_ofNat]
  exact Nat.mod_eq_of_lt (lt_trans (src m k).isLt (by norm_num))

/-- The gather's index column at row `k` is that word: a position word is not negative, so the wrap is not taken. -/
theorem permCol_apply (k : Fin 32) : permCol m (StableHlo.Predicate.ixP k) = BitVec.ofNat 32 (src m k).val := by
  unfold permCol
  rw [StableHlo.Predicate.bcast_col1]
  simp only [select, cmpi, addi, broadcastInDim, constantI]
  rw [perm_apply]
  exact Cert.Words.wrap_of_nonneg _ _ (by rw [Cert.Words.toInt_ofNat _ (src_small m k)]; omega)

/-- Entry `k` of the second table is the language id of the sequence visited at `k`: the take reads inside the vector. -/
theorem tbl1_apply (k : Fin 32) : (tbl m 1 (Shape.Idx.ofFin k) : BitVec 32) = lang m (Shape.Idx.ofFin (src m k)) := by
  have hg := StableHlo.Predicate.gather_take (α := BitVec 32) (N := 32) (n := 32) (w := 32)
    gather_S32_S32x1_S32_n_0_n_n_0_1_1 rfl rfl rfl rfl (lang m) (permCol m) k (by norm_num)
  refine (congrFun (tbl1_eq m) (Shape.Idx.ofFin k)).trans (hg.trans ?_)
  refine congrArg (lang m) (congrArg Shape.Idx.ofFin (Fin.ext ?_))
  show min (permCol m (StableHlo.Predicate.ixP k)).toInt.toNat (32 - 1) = (src m k).val
  rw [permCol_apply, Cert.Words.toInt_ofNat _ (src_small m k), Int.toNat_natCast]
  have := (src m k).isLt
  omega

/-! ## Under the precondition: the first tokens are language ids -/

/-- The vector of first tokens at `j` is the token array at `(j, 0)`. -/
theorem tok_apply (j : S32.Idx) : tok m j = seq0 m (ValueIdx.ix2 (j 0) (0 : Fin 2048)) := by
  unfold tok
  exact FirstColumn.col0_apply (by norm_num) (seq0 m) slices_S32x2048_S32x1_0_0 shapeCasts_S32x1_S32 j

/-- The precondition's conjunct on the token array's first column, said of the vector of first tokens. -/
theorem range_tok
    (hs : ∀ n : Fin 32, 0 ≤ (seq0 m (ValueIdx.ix2 n (0 : Fin 2048))).toInt ∧ (seq0 m (ValueIdx.ix2 n (0 : Fin 2048))).toInt < 8)
    (j : S32.Idx) : 0 ≤ (tok m j).toInt ∧ (tok m j).toInt < 8 := by
  rw [tok_apply]; exact hs (j 0)

/-- The clip does nothing to a language id. -/
theorem lang_apply (hr : ∀ j : S32.Idx, 0 ≤ (tok m j).toInt ∧ (tok m j).toInt < 8) (j : S32.Idx) : lang m j = tok m j := by
  unfold lang
  simp only [minsi, maxsi, broadcastInDim, constantI]
  exact Cert.Words.clip7 _ (hr j).1 (hr j).2

/-- A language id names one of the 8 layers. -/
theorem tok_lt (hr : ∀ j : S32.Idx, 0 ≤ (tok m j).toInt ∧ (tok m j).toInt < 8) (j : S32.Idx) : (tok m j).toNat < 8 :=
  (Cert.Words.toNat_of_range _ 8 (by norm_num) (hr j).1 (hr j).2).1

/-- So entry `k` of the second table is the first token of the sequence visited at `k`. -/
theorem tbl1_tok (hr : ∀ j : S32.Idx, 0 ≤ (tok m j).toInt ∧ (tok m j).toInt < 8) (k : Fin 32) :
    (tbl m 1 (Shape.Idx.ofFin k) : BitVec 32) = tok m (Shape.Idx.ofFin (src m k)) :=
  (tbl1_apply m k).trans (lang_apply m hr _)

end Cert.KernelIdeal.Tables

end
-- ==== Proof.IndexMaps.lean ====
/-
  The windows' index maps in closed form, and the pipeline's side condition.

  Each of the four index maps loads one table word at the grid point's position and returns the block index
  (word, 0, 0): the embeddings' and the result's maps read the visiting order, the weights' and the biases' maps read
  the language ids in visiting order. So at point `k` the embeddings' and the result's block is the slab of the sequence
  visited at `k`, and the weights' and the biases' block is that of the sequence's language. A sequence number is below
  32 and a language id below 8, so every block lies inside its array; and every block holds whole rows of its array,
  so each transfer moves whole words.
-/
import proofs.«412761_j22479858827436_3_alg».proof.Proof.Tables

set_option maxRecDepth 16384

noncomputable section

namespace Cert.KernelIdeal.IndexMaps

open Cert.KernelIdeal Cert.KernelIdeal.Gen Cert.KernelIdeal.Tables
open Idealize.ShloMosaic Idealize.ShloMosaic.TcCoe Idealize.SL.Sem

variable {F : FTy → Type} [FloatOps F]
variable (m : (ℓ : Loc nD τ sig) → Buf (Elt F) ℓ)

/-- The grid has one axis of 32 points: a setting of its coordinates is a position of the tables. -/
abbrev pos (i : grid0.Coords) : Fin 32 := ⟨(i 0).val, (i 0).isLt⟩

/-- The unit rectangle at offset `k` of a table of 32 words holds the one index `k`. -/
theorem unit_emb (k : Fin 32) (off : Fin 1 → Nat) (hoff : off 0 = k.val) (inb : ∀ a, off a + S1.size a ≤ S32.size a)
    (h1 : 0 < S1.numel) : (Rect.unit (s := S32) off S1.size inb).emb (Shape.Idx.first h1) = Shape.Idx.ofFin k := by
  funext a
  obtain rfl : a = 0 := Subsingleton.elim _ _
  apply Fin.ext
  show off 0 + 1 * (Shape.Idx.first h1 (0 : Fin 1)).val = k.val
  have : (Shape.Idx.first h1 (0 : Fin 1)).val = 0 := by
    have := (Shape.Idx.first h1 (0 : Fin 1)).isLt
    have e : S1.size (0 : Fin 1) = 1 := by decide
    omega
  rw [this, hoff]; omega

/-- The offset an index map loads a table at is the point's position: the position word does not wrap. -/
theorem off_eq (i : grid0.Coords) : (![(Scalar.indexCast (BitVec.ofNat 32 (i 0).val)).toNat] : Fin 1 → Nat) 0 = (pos i).val := by
  show (BitVec.ofNat 32 (i 0).val).toNat = (i 0).val
  have h : (i 0).val < 32 := (i 0).isLt
  rw [BitVec.toNat_ofNat]
  exact Nat.mod_eq_of_lt (by omega)

/-- The word an index map reads from the first table at grid coordinates `i` is its entry at the point's position, -/
theorem word0 (i : grid0.Coords) :
    ((tbl m).at 0 (Rect.unit (s := S32) ![(Scalar.indexCast (BitVec.ofNat 32 (i 0).val)).toNat] S1.size (k0_off1_inb i)) numel1_S1 : BitVec 32)
      = tbl m 0 (Shape.Idx.ofFin (pos i)) :=
  congrArg (tbl m 0) (unit_emb (pos i) _ (off_eq i) _ _)

/-- and likewise from the second. -/
theorem word1 (i : grid0.Coords) :
    ((tbl m).at 1 (Rect.unit (s := S32) ![(Scalar.indexCast (BitVec.ofNat 32 (i 0).val)).toNat] S1.size (k0_off1_inb i)) numel1_S1 : BitVec 32)
      = tbl m 1 (Shape.Idx.ofFin (pos i)) :=
  congrArg (tbl m 1) (unit_emb (pos i) _ (off_eq i) _ _)

/-- The embeddings' and the result's index maps: block (sequence visited at the point, 0, 0). -/
theorem map0 (i : grid0.Coords) : cc0_transform_0 k0_off1_inb numel1_S1 (tbl m) i = ![(src m (pos i)).val, 0, 0] := by
  refine (congrArg (fun w : BitVec 32 => (![w.toNat, 0, 0] : Fin 3 → Nat)) (word0 m i)).trans ?_
  show (![(tbl m 0 (Shape.Idx.ofFin (pos i)) : BitVec 32).toNat, 0, 0] : Fin 3 → Nat) = _
  rw [tbl0_toNat]

theorem map3 (i : grid0.Coords) : cc0_transform_3 k0_off1_inb numel1_S1 (tbl m) i = ![(src m (pos i)).val, 0, 0] := by
  refine (congrArg (fun w : BitVec 32 => (![w.toNat, 0, 0] : Fin 3 → Nat)) (word0 m i)).trans ?_
  show (![(tbl m 0 (Shape.Idx.ofFin (pos i)) : BitVec 32).toNat, 0, 0] : Fin 3 → Nat) = _
  rw [tbl0_toNat]

/-- The weights' and the biases' index maps: block (language id of that sequence, 0, 0). -/
theorem map1 (hr : ∀ j : S32.Idx, 0 ≤ (tok m j).toInt ∧ (tok m j).toInt < 8) (i : grid0.Coords) :
    cc0_transform_1 k0_off1_inb numel1_S1 (tbl m) i = ![(tok m (Shape.Idx.ofFin (src m (pos i)))).toNat, 0, 0] := by
  refine (congrArg (fun w : BitVec 32 => (![w.toNat, 0, 0] : Fin 3 → Nat)) (word1 m i)).trans ?_
  show (![(tbl m 1 (Shape.Idx.ofFin (pos i)) : BitVec 32).toNat, 0, 0] : Fin 3 → Nat) = _
  rw [tbl1_tok m hr]

theorem map2 (hr : ∀ j : S32.Idx, 0 ≤ (tok m j).toInt ∧ (tok m j).toInt < 8) (i : grid0.Coords) :
    cc0_transform_2 k0_off1_inb numel1_S1 (tbl m) i = ![(tok m (Shape.Idx.ofFin (src m (pos i)))).toNat, 0, 0] := by
  refine (congrArg (fun w : BitVec 32 => (![w.toNat, 0, 0] : Fin 3 → Nat)) (word1 m i)).trans ?_
  show (![(tbl m 1 (Shape.Idx.ofFin (pos i)) : BitVec 32).toNat, 0, 0] : Fin 3 → Nat) = _
  rw [tbl1_tok m hr]

/-- THE PIPELINE'S SIDE CONDITION: every block the index maps name lies inside its array — a sequence number is
    below 32 and a language id below 8 — and every transfer moves whole rows of its array. -/
theorem ok (hr : ∀ j : S32.Idx, 0 ≤ (tok m j).toInt ∧ (tok m j).toInt < 8) : Ok m := by
  refine ⟨fun i => ?_, fun i => ?_, fun i => ?_, fun i => ?_⟩
  · rw [map0]
    have hk := (src m (pos i)).isLt
    refine ⟨fun a => ?_, Or.inr (Or.inr ⟨by decide, rfl, rfl, rfl⟩)⟩
    fin_cases a <;> simp [S1x2048x1024, S32x2048x1024] <;> omega
  · rw [map1 m hr]
    have hk := tok_lt m hr (Shape.Idx.ofFin (src m (pos i)))
    refine ⟨fun a => ?_, Or.inr (Or.inr ⟨by decide, rfl, rfl, rfl⟩)⟩
    fin_cases a <;> simp [S1x1024x1024, S8x1024x1024] <;> omega
  · rw [map2 m hr]
    have hk := tok_lt m hr (Shape.Idx.ofFin (src m (pos i)))
    refine ⟨fun a => ?_, Or.inl rfl⟩
    fin_cases a <;> simp [S1x1x1024, S8x1x1024] <;> omega
  · rw [map3]
    have hk := (src m (pos i)).isLt
    refine ⟨fun a => ?_, Or.inl rfl⟩
    fin_cases a <;> simp [S1x2048x1024, S32x2048x1024] <;> omega

end Cert.KernelIdeal.IndexMaps

end
-- ==== Proof.Payload.lean ====
/-
  What the kernel's body stores, read at an index.

  The body holds one sequence's embeddings `x0 : [1, 2048, 1024]`, one language's weights `x1 : [1, 1024, 1024]` (output
  feature, input feature) and its biases `x2 : [1, 1, 1024]`. It drops the unit axes, contracts the embeddings' feature
  axis against the weights' INPUT-feature axis (axis 1 of both: `x · wᵀ` with no transpose made) into a zero accumulator,
  adds the bias row to every token's row, and puts the unit axis back. Over the extended reals the accumulator is `0`
  and every operation is exact, so the stored block at `(0, p, e)` is `Σ_d x0[0, p, d] · x1[0, e, d] + x2[0, 0, e]`.
-/
import proofs.«412761_j22479858827436_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx
open scoped BigOperators

/-! ## The contraction's operand indices, axis by axis -/

theorem lhs_0 (i : S2048x1024.Idx) (q : dot_S2048x1024_S1024x1024_S2048x1024_1_1_0_0_n_n.contr.Idx) :
    (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem lhs_1 (i : S2048x1024.Idx) (q : dot_S2048x1024_S1024x1024_S2048x1024_1_1_0_0_n_n.contr.Idx) :
    (dot_S2048x1024_S1024x1024_S2048x1024_1_1_0_0_n_n.lhsIdx i q 1).val = (q ⟨0, by decide⟩).val :=
  dot_S2048x1024_S1024x1024_S2048x1024_1_1_0_0_n_n.lhsIdx_val_of_single rfl i q
theorem rhs_0 (i : S2048x1024.Idx) (q : dot_S2048x1024_S1024x1024_S2048x1024_1_1_0_0_n_n.contr.Idx) :
    (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem rhs_1 (i : S2048x1024.Idx) (q : dot_S2048x1024_S1024x1024_S2048x1024_1_1_0_0_n_n.contr.Idx) :
    (dot_S2048x1024_S1024x1024_S2048x1024_1_1_0_0_n_n.rhsIdx i q 1).val = (q ⟨0, by decide⟩).val :=
  dot_S2048x1024_S1024x1024_S2048x1024_1_1_0_0_n_n.rhsIdx_val_of_single rfl i q

/-- The product into the zero accumulator at `(p, e)`: token `p`'s row against output feature `e`'s row. -/
theorem matmul_at (x : FVec Ideal S2048x1024 .bf16) (w : FVec Ideal S1024x1024 .bf16) (p : Fin 2048) (e : Fin 1024) :
    matmul dot_S2048x1024_S1024x1024_S2048x1024_1_1_0_0_n_n none x w (constant (F := Ideal) S2048x1024 .f32 0x00000000#32) (ix2 p e)
      = ∑ d : Fin 1024, x (ix2 p d) * w (ix2 e d) := by
  show FloatOps.matmul dot_S2048x1024_S1024x1024_S2048x1024_1_1_0_0_n_n none x w (constant (F := Ideal) S2048x1024 .f32 0x00000000#32) (ix2 p e) = _
  rw [Ideal.matmul_constant_zero_apply, ← Equiv.sum_comp (ValueIdx.contrEquiv1 dot_S2048x1024_S1024x1024_S2048x1024_1_1_0_0_n_n 1024 rfl rfl).symm]
  refine Finset.sum_congr rfl fun k _ => ?_
  have hk := ValueIdx.contrEquiv1_symm_val dot_S2048x1024_S1024x1024_S2048x1024_1_1_0_0_n_n 1024 rfl rfl k
  have el : dot_S2048x1024_S1024x1024_S2048x1024_1_1_0_0_n_n.lhsIdx (ix2 p e) ((ValueIdx.contrEquiv1 dot_S2048x1024_S1024x1024_S2048x1024_1_1_0_0_n_n 1024 rfl rfl).symm k) = ix2 p k := funext fun a => Fin.ext (by
    match a with
    | ⟨0, _⟩ => exact lhs_0 _ _
    | ⟨1, _⟩ => exact (lhs_1 _ _).trans hk)
  have er : dot_S2048x1024_S1024x1024_S2048x1024_1_1_0_0_n_n.rhsIdx (ix2 p e) ((ValueIdx.contrEquiv1 dot_S2048x1024_S1024x1024_S2048x1024_1_1_0_0_n_n 1024 rfl rfl).symm k) = ix2 e k := funext fun a => Fin.ext (by
    match a with
    | ⟨0, _⟩ => exact rhs_0 _ _
    | ⟨1, _⟩ => exact (rhs_1 _ _).trans hk)
  rw [el, er]

/-- THE STORED BLOCK at `(0, p, e)`. -/
theorem pay_apply (x0 : FVec Ideal S1x2048x1024 .bf16) (x1 : FVec Ideal S1x1024x1024 .bf16) (x2 : FVec Ideal S1x1x1024 .f32)
    (u : Fin 1) (p : Fin 2048) (e : Fin 1024) :
    k0_pay1 (F := Ideal) x0 x1 x2 (ix3 u p e)
      = (∑ d : Fin 1024, x0 (ix3 (0 : Fin 1) p d) * x1 (ix3 (0 : Fin 1) e d)) + x2 (ix3 (0 : Fin 1) (0 : Fin 1) e) := by
  unfold k0_pay1
  rw [shapeCast_ab_1ab_apply]
  show FloatOps.addf (matmul dot_S2048x1024_S1024x1024_S2048x1024_1_1_0_0_n_n none _ _ _ (ix2 p e)) (broadcastTo S2048x1024 _ _ (ix2 p e)) = _
  rw [matmul_at, broadcastTo_1b_ab_apply, shapeCast_1ab_ab_apply]
  simp only [shapeCast_1ab_ab_apply]
  rfl

end Cert.KernelIdeal.Payload

end
-- ==== Proof.Spec.lean ====
/-
  What both programs compute, as one function.

  There are 32 sequences of 2048 tokens; token `p` of sequence `n` has an embedding `X[n, p, :]` of 1024 numbers (a row
  of the embedding table, picked by the token). The first token of a sequence is its language id `l(n)`, one of 8. Each
  language has its own linear layer `y = W[l] x + b[l]` with `W[l]` stored as (output feature, input feature). The
  result is every token's embedding sent through the layer of its sequence's language:

      out[n, p, e] = Σ_d X[n, p, d] · W[l(n), e, d] + b[l(n), e].

  The sum has 1024 terms and the numbers are extended reals; nothing below distributes a product over a sum, so no
  finiteness is needed to state or to compare it.
-/
import Idealize.ShloMosaic.PureOps.Ideal
import Idealize.ShloMosaic.Lib.ValueIdx

noncomputable section

namespace Cert.PerLang

open Idealize.ShloMosaic Idealize.ShloMosaic.ValueIdx
open scoped BigOperators

/-- The language id of sequence `n`: its first token as a natural number (kept below 8 so that it always names a layer;
    where the first token is a language id already this is the token itself). -/
def langOf (seq : IVec ⟨2, ![32, 2048]⟩ 32) (n : Fin 32) : Fin 8 :=
  ⟨min (seq (ix2 n (0 : Fin 2048))).toNat 7, by omega⟩

/-- Every token's embedding through the linear layer of its sequence's language. -/
def perLangLinear (seq : IVec ⟨2, ![32, 2048]⟩ 32) (X : FVec Ideal ⟨3, ![32, 2048, 1024]⟩ .f32)
    (W : FVec Ideal ⟨3, ![8, 1024, 1024]⟩ .f32) (b : FVec Ideal ⟨2, ![8, 1024]⟩ .f32) :
    FVec Ideal ⟨3, ![32, 2048, 1024]⟩ .f32 :=
  fun i => (∑ d : Fin 1024, X (ix3 (i 0) (i 1) d) * W (ix3 (langOf seq (i 0)) (i 2) d)) + b (ix2 (langOf seq (i 0)) (i 2))

/-- The same at an index given by its coordinates. -/
theorem perLangLinear_apply (seq : IVec ⟨2, ![32, 2048]⟩ 32) (X : FVec Ideal ⟨3, ![32, 2048, 1024]⟩ .f32)
    (W : FVec Ideal ⟨3, ![8, 1024, 1024]⟩ .f32) (b : FVec Ideal ⟨2, ![8, 1024]⟩ .f32) (n : Fin 32) (p : Fin 2048) (e : Fin 1024) :
    perLangLinear seq X W b (ix3 n p e)
      = (∑ d : Fin 1024, X (ix3 n p d) * W (ix3 (langOf seq n) e d)) + b (ix2 (langOf seq n) e) := rfl

end Cert.PerLang

end
-- ==== Proof.KernelValue.lean ====
/-
  What the kernel leaves in its result array.

  The grid has 32 points. At point `t` the pipeline fetches the embeddings of the sequence `s(t)` visited there (block
  `s(t)` of the gathered embeddings `[32, 2048, 1024]`), the weights and the biases of that sequence's language (block
  `l` of `[8, 1024, 1024]` and of `[8, 1, 1024]`, `l` the sequence's first token), runs the body, and writes the body's
  block back as block `s(t)` of the result. The body's block is `Σ_d x[0, p, d] · w[0, e, d] + b[0, 0, e]`, so what is
  written back is the per-language linear layer read through the block: ONE function of the arrays, whatever the
  point. The visiting order is a permutation of the 32 sequences: no two points write the same block, so every point
  writes back, and every sequence's block is written. Hence the result array ends holding the per-language linear
  layer of the gathered embeddings.
-/
import proofs.«412761_j22479858827436_3_alg».proof.Proof.IndexMaps
import proofs.«412761_j22479858827436_3_alg».proof.Proof.Payload
import proofs.«412761_j22479858827436_3_alg».proof.Proof.Spec
import proofs.«412761_j22479858827436_3_alg».proof.Proof.LibFirstColumn
import Idealize.ShloMosaic.Lib.Pipeline.Value
import Idealize.ShloMosaic.Lib.Tactic

set_option maxRecDepth 16384

noncomputable section

namespace Cert.KernelIdeal.KValue

open Cert.KernelIdeal Cert.KernelIdeal.Gen Cert.KernelIdeal.Tables Cert.KernelIdeal.IndexMaps
open Idealize.ShloMosaic Idealize.ShloMosaic.TcCoe Idealize.SL.Sem Idealize.ShloMosaic.Tactic Idealize.ShloMosaic.ValueIdx
open Idealize.ShloMosaic.Pipeline (Dat)
open scoped BigOperators

variable (m : (ℓ : Loc nD τ sig) → Buf (Elt Ideal) ℓ) (ρ : Dev nD → PrngReg)

theorem hz : (![0, 0, 0] : Fin 3 → Nat) = fun _ => 0 := funext fun a => by fin_cases a <;> rfl

/-! ## The body's block -/

/-- What the body leaves in the result's staging buffer is its one store's payload of the three blocks it loaded: the
    store covers the buffer and each load reads a whole buffer. -/
theorem out_eq (c : Dev nD) (i : grid0.Coords) (arg3 : Memref sig .tc .vmem S1x2048x1024 .bf16) (harg3 : arg3.IsWhole)
    (arg4 : Memref sig .tc .vmem S1x1024x1024 .bf16) (harg4 : arg4.IsWhole) (arg5 : Memref sig .tc .vmem S1x1x1024 .f32)
    (harg5 : arg5.IsWhole) (arg6 : Memref sig .tc .vmem S1x2048x1024 .f32) (harg6 : arg6.IsWhole)
    (x0 : Vec Ideal S1x2048x1024 .bf16) (x1 : Vec Ideal S1x1024x1024 .bf16) (x2 : Vec Ideal S1x1x1024 .f32)
    (xt0 : TbBuf0 (F := Ideal) c tbM0_0) (xt1 : TbBuf0 (F := Ideal) c tbM0_1) :
    out0_A_3 c i arg3 harg3 arg4 harg4 arg5 harg5 arg6 harg6 x0 x1 x2 xt0 xt1 = k0_pay1 x0 x1 x2 := by
  unfold out0_A_3
  rw [View.read_writes_eq_canon _ _ _ (cover0_A_3 c i arg3 harg3 arg4 harg4 arg5 harg5 arg6 harg6 x0 x1 x2 xt0 xt1)]
  unfold kernelRun0_A
  dsimp only
  sl_unfold_words
  rw [View.canon_unit_zero hz]
  simp only [View.readAt_eq_ld, harg3.read_unread, harg4.read_unread, harg5.read_unread,
    View.ld_unit_zero (S := S1x2048x1024) hz, View.ld_unit_zero (S := S1x1024x1024) hz, View.ld_unit_zero (S := S1x1x1024) hz]

/-! ## The blocks at a point -/

variable (hO : Ok m)

-- the tables' contents are never opened here: every fact about them is a lemma of the modules above
attribute [local irreducible] Cert.KernelIdeal.Gen.tbl Cert.KernelIdeal.Tables.src Cert.KernelIdeal.Tables.tok

/-- The sequence visited at point `t`. -/
def seqAt (t : Fin (cfgM m hO).N) : Fin 32 := src m (pos (grid0.coords t))

theorem index0 (t : Fin (cfgM m hO).N) : ((cfgM m hO).win 0).index t = ![(seqAt m hO t).val, 0, 0] := by
  unfold Pipeline.Window.index
  exact map0 m (grid0.coords t)
theorem index3 (t : Fin (cfgM m hO).N) : ((cfgM m hO).win 3).index t = ![(seqAt m hO t).val, 0, 0] := by
  unfold Pipeline.Window.index
  exact map3 m (grid0.coords t)
theorem index1 (hr : ∀ j : S32.Idx, 0 ≤ (tok m j).toInt ∧ (tok m j).toInt < 8) (t : Fin (cfgM m hO).N) :
    ((cfgM m hO).win 1).index t = ![(tok m (Shape.Idx.ofFin (seqAt m hO t))).toNat, 0, 0] := by
  unfold Pipeline.Window.index
  exact map1 m hr (grid0.coords t)
theorem index2 (hr : ∀ j : S32.Idx, 0 ≤ (tok m j).toInt ∧ (tok m j).toInt < 8) (t : Fin (cfgM m hO).N) :
    ((cfgM m hO).win 2).index t = ![(tok m (Shape.Idx.ofFin (seqAt m hO t))).toNat, 0, 0] := by
  unfold Pipeline.Window.index
  exact map2 m hr (grid0.coords t)

/-- The language id of the sequence visited at `t`, as a layer number. -/
def langAt (hr : ∀ j : S32.Idx, 0 ≤ (tok m j).toInt ∧ (tok m j).toInt < 8) (t : Fin (cfgM m hO).N) : Fin 8 :=
  ⟨(tok m (Shape.Idx.ofFin (seqAt m hO t))).toNat, tok_lt m hr _⟩

/-- A slab `[1, 2048, 1024]` of an array `[32, 2048, 1024]` read through the embeddings' window at `t` is the visited
    sequence's slab: the block index is (sequence, 0, 0), and a block's coordinate is index × size + the coordinate inside. -/
theorem read_blk0 (X : Vec Ideal S32x2048x1024 .bf16) (t : Fin (cfgM m hO).N) (u : Fin 1) (p : Fin 2048) (d : Fin 1024) :
    (((cfgM m hO).win 0).blk t).view.read (Elt Ideal) X (ix3 u p d) = X (ix3 (seqAt m hO t) p d) := by
  show X ((((cfgM m hO).win 0).blk t).view.emb (ix3 u p d)) = X _
  refine congrArg X (funext fun a => Fin.ext ?_)
  show ((cfgM m hO).win 0).index t a * spec0_0.size a + 1 * (ix3 u p d a).val = (ix3 (seqAt m hO t) p d a).val
  rw [index0]
  have hu : u.val = 0 := by omega
  match a with
  | ⟨0, _⟩ => show (seqAt m hO t).val * 1 + 1 * u.val = (seqAt m hO t).val; omega
  | ⟨1, _⟩ => show 0 * 2048 + 1 * p.val = p.val; omega
  | ⟨2, _⟩ => show 0 * 1024 + 1 * d.val = d.val; omega

/-- The same through the result's window. -/
theorem read_blk3 (X : Vec Ideal S32x2048x1024 .f32) (t : Fin (cfgM m hO).N) (u : Fin 1) (p : Fin 2048) (e : Fin 1024) :
    (((cfgM m hO).win 3).blk t).view.read (Elt Ideal) X (ix3 u p e) = X (ix3 (seqAt m hO t) p e) := by
  show X ((((cfgM m hO).win 3).blk t).view.emb (ix3 u p e)) = X _
  refine congrArg X (funext fun a => Fin.ext ?_)
  show ((cfgM m hO).win 3).index t a * spec0_3.size a + 1 * (ix3 u p e a).val = (ix3 (seqAt m hO t) p e a).val
  rw [index3]
  have hu : u.val = 0 := by omega
  match a with
  | ⟨0, _⟩ => show (seqAt m hO t).val * 1 + 1 * u.val = (seqAt m hO t).val; omega
  | ⟨1, _⟩ => show 0 * 2048 + 1 * p.val = p.val; omega
  | ⟨2, _⟩ => show 0 * 1024 + 1 * e.val = e.val; omega

/-- A matrix `[1, 1024, 1024]` of `[8, 1024, 1024]` read through the weights' window at `t` is the matrix of the visited
    sequence's language. -/
theorem read_blk1 (hr : ∀ j : S32.Idx, 0 ≤ (tok m j).toInt ∧ (tok m j).toInt < 8) (X : Vec Ideal S8x1024x1024 .bf16)
    (t : Fin (cfgM m hO).N) (u : Fin 1) (e : Fin 1024) (d : Fin 1024) :
    (((cfgM m hO).win 1).blk t).view.read (Elt Ideal) X (ix3 u e d) = X (ix3 (langAt m hO hr t) e d) := by
  show X ((((cfgM m hO).win 1).blk t).view.emb (ix3 u e d)) = X _
  refine congrArg X (funext fun a => Fin.ext ?_)
  show ((cfgM m hO).win 1).index t a * spec0_1.size a + 1 * (ix3 u e d a).val = (ix3 (langAt m hO hr t) e d a).val
  rw [index1 m hO hr]
  have hu : u.val = 0 := by omega
  match a with
  | ⟨0, _⟩ => show (tok m (Shape.Idx.ofFin (seqAt m hO t))).toNat * 1 + 1 * u.val = (tok m (Shape.Idx.ofFin (seqAt m hO t))).toNat; omega
  | ⟨1, _⟩ => show 0 * 1024 + 1 * e.val = e.val; omega
  | ⟨2, _⟩ => show 0 * 1024 + 1 * d.val = d.val; omega

/-- A row `[1, 1, 1024]` of `[8, 1, 1024]` read through the biases' window at `t` is the row of the visited sequence's
    language. -/
theorem read_blk2 (hr : ∀ j : S32.Idx, 0 ≤ (tok m j).toInt ∧ (tok m j).toInt < 8) (X : Vec Ideal S8x1x1024 .f32)
    (t : Fin (cfgM m hO).N) (u v : Fin 1) (e : Fin 1024) :
    (((cfgM m hO).win 2).blk t).view.read (Elt Ideal) X (ix3 u v e) = X (ix3 (langAt m hO hr t) (0 : Fin 1) e) := by
  show X ((((cfgM m hO).win 2).blk t).view.emb (ix3 u v e)) = X _
  refine congrArg X (funext fun a => Fin.ext ?_)
  show ((cfgM m hO).win 2).index t a * spec0_2.size a + 1 * (ix3 u v e a).val = (ix3 (langAt m hO hr t) (0 : Fin 1) e a).val
  rw [index2 m hO hr]
  have hu : u.val = 0 := by omega
  have hv : v.val = 0 := by omega
  match a with
  | ⟨0, _⟩ => show (tok m (Shape.Idx.ofFin (seqAt m hO t))).toNat * 1 + 1 * u.val = (tok m (Shape.Idx.ofFin (seqAt m hO t))).toNat; omega
  | ⟨1, _⟩ => show 0 * 1 + 1 * v.val = 0; omega
  | ⟨2, _⟩ => show 0 * 1024 + 1 * e.val = e.val; omega

/-! ## The arrays the region finds -/

/-- The gathered embeddings: every token's row of the embedding table (the table's change of format is the identity
    on the extended reals and is left as printed). -/
def embeds (c : Dev nD) : FVec Ideal S32x2048x1024 .bf16 :=
  Host.gather gather_S32000x1024_S32x2048x1_S32x2048x1024_2_0_n_n_0_2_11024
    (truncf .bf16 (m ((c : Thread nD τ).loc main_arg1)) bitsLt_bf16_f32)
    (broadcastInDim S32x2048x1 ![0, 1] bcast_S32x2048_S32x2048x1_0_1
      (select (cmpi .slt (m ((c : Thread nD τ).loc main_arg0)) (broadcastInDim S32x2048 ![] bcast_S_S32x2048 (constantI S_ 32 0#32)))
        (addi (m ((c : Thread nD τ).loc main_arg0)) (broadcastInDim S32x2048 ![] bcast_S_S32x2048 (constantI S_ 32 32000#32)))
        (m ((c : Thread nD τ).loc main_arg0))))

set_option maxHeartbeats 2000000 in
/-- The embeddings' window stages the gathered embeddings. -/
theorem V18 (c : Dev nD) : (V m c main_v18 : FVec Ideal S32x2048x1024 .bf16) = embeds m c := by
  unfold embeds
  dsimp only [V]
  simp only [hostOps0, hostOps0_1, hostOps0_2, hostOps0_3, List.flatten_cons, List.flatten_nil, List.append_nil,
    List.cons_append, List.nil_append]
  after_results_simp <;> rfl

/-- The weights as staged: their change of format, the identity on the extended reals, left as printed. -/
def weights (c : Dev nD) : FVec Ideal S8x1024x1024 .bf16 :=
  truncf .bf16 (m ((c : Thread nD τ).loc main_arg2)) bitsLt_bf16_f32

/-- The biases as staged: a unit axis put in the middle. -/
def biases (c : Dev nD) : FVec Ideal S8x1x1024 .f32 :=
  shapeCast S8x1x1024 (m ((c : Thread nD τ).loc main_arg3)) shapeCasts_S8x1024_S8x1x1024

set_option maxHeartbeats 2000000 in
theorem V19_eq (c : Dev nD) : (V m c main_v19 : FVec Ideal S8x1024x1024 .bf16) = weights m c := by
  unfold weights
  dsimp only [V]
  simp only [hostOps0, hostOps0_1, hostOps0_2, hostOps0_3, List.flatten_cons, List.flatten_nil, List.append_nil,
    List.cons_append, List.nil_append]
  after_results_simp <;> rfl

/-- The weights' window stages the weights. -/
theorem V19 (c : Dev nD) (i : S8x1024x1024.Idx) : V m c main_v19 i = m ((c : Thread nD τ).loc main_arg2) i :=
  congrFun (V19_eq m c) i

set_option maxHeartbeats 2000000 in
theorem V20_eq (c : Dev nD) : (V m c main_v20 : FVec Ideal S8x1x1024 .f32) = biases m c := by
  unfold biases
  dsimp only [V]
  simp only [hostOps0, hostOps0_1, hostOps0_2, hostOps0_3, List.flatten_cons, List.flatten_nil, List.append_nil,
    List.cons_append, List.nil_append]
  after_results_simp <;> rfl

/-- The biases' window stages the biases: row `l` of `[8, 1, 1024]` is row `l` of `[8, 1024]`. -/
theorem V20 (c : Dev nD) (l : Fin 8) (v : Fin 1) (e : Fin 1024) :
    V m c main_v20 (ix3 l v e) = m ((c : Thread nD τ).loc main_arg3) (ix2 l e) := by
  refine (congrFun (V20_eq m c) (ix3 l v e)).trans ?_
  unfold biases
  have hv : v.val = 0 := by omega
  exact shapeCast_apply _ shapeCasts_S8x1024_S8x1x1024 (ix3 l v e) (ix2 l e) (by
    rw [Shape.rowMajor_val_two, Shape.rowMajor_val_three]
    show l.val * 1024 + e.val = (l.val * 1 + v.val) * 1024 + e.val
    rw [hv]; omega)

/-! ## The blocks at a point, as entries of the arrays -/

theorem iblk0_apply (c : Dev nD) (t : Fin (cfgM m hO).N) (u : Fin 1) (p : Fin 2048) (d : Fin 1024) :
    iblk m hO c 0 t (ix3 u p d) = embeds m c (ix3 (seqAt m hO t) p d) := by
  unfold iblk
  exact (read_blk0 m hO (V m c main_v18) t u p d).trans (congrFun (V18 m c) _)

theorem iblk1_apply (hr : ∀ j : S32.Idx, 0 ≤ (tok m j).toInt ∧ (tok m j).toInt < 8) (c : Dev nD) (t : Fin (cfgM m hO).N)
    (u : Fin 1) (e d : Fin 1024) :
    iblk m hO c 1 t (ix3 u e d) = m ((c : Thread nD τ).loc main_arg2) (ix3 (langAt m hO hr t) e d) := by
  unfold iblk
  exact (read_blk1 m hO hr (V m c main_v19) t u e d).trans (V19 m c _)

theorem iblk2_apply (hr : ∀ j : S32.Idx, 0 ≤ (tok m j).toInt ∧ (tok m j).toInt < 8) (c : Dev nD) (t : Fin (cfgM m hO).N)
    (u v : Fin 1) (e : Fin 1024) :
    iblk m hO c 2 t (ix3 u v e) = m ((c : Thread nD τ).loc main_arg3) (ix2 (langAt m hO hr t) e) := by
  unfold iblk
  exact (read_blk2 m hO hr (V m c main_v20) t u v e).trans (V20 m c _ _ _)

/-! ## The result array -/

/-- THE RESULT: the per-language linear layer of the gathered embeddings. -/
def result (c : Dev nD) : Buf (Elt Ideal) ((c : Thread nD τ).loc main_v21) :=
  Cert.PerLang.perLangLinear (m ((c : Thread nD τ).loc main_arg0)) (embeds m c) (m ((c : Thread nD τ).loc main_arg2))
    (m ((c : Thread nD τ).loc main_arg3))

/-- The language id of the sequence visited at `t` is that sequence's language in the specification's reading. -/
theorem langAt_eq
    (hs : ∀ n : Fin 32, 0 ≤ (seq0 m (ix2 n (0 : Fin 2048))).toInt ∧ (seq0 m (ix2 n (0 : Fin 2048))).toInt < 8)
    (t : Fin (cfgM m hO).N) :
    langAt m hO (range_tok m hs) t = Cert.PerLang.langOf (seq0 m) (seqAt m hO t) := by
  apply Fin.ext
  show (tok m (Shape.Idx.ofFin (seqAt m hO t))).toNat = min (seq0 m (ix2 (seqAt m hO t) (0 : Fin 2048))).toNat 7
  have h8 := tok_lt m (range_tok m hs) (Shape.Idx.ofFin (seqAt m hO t))
  rw [tok_apply, Shape.Idx.ofFin_zero] at h8 ⊢
  omega

/-- What point `t` writes back is the result read through the point's block. -/
theorem flushed_eq
    (hs : ∀ n : Fin 32, 0 ≤ (seq0 m (ix2 n (0 : Fin 2048))).toInt ∧ (seq0 m (ix2 n (0 : Fin 2048))).toInt < 8)
    (c : Dev nD) (t : Fin (cfgM m hO).N) (hf : ((cfgM m hO).win 3).flush t = true) :
    (dats m hO 0 c).flushed 3 t = (((cfgM m hO).win 3).blk t).view.read (Elt Ideal) (result m c) := by
  obtain rfl : c = 0 := Subsingleton.elim _ _
  show ((cfgM m hO).win 3).cut (grid0.coords t) ((dats m hO 0 0).after 3 t) = _
  rw [after0_3]
  show (outsAt0 m hO 0 t : Vec Ideal S1x2048x1024 .f32)
    = ((((cfgM m hO).win 3).blk t).view.read (Elt Ideal) (result m 0) : Vec Ideal S1x2048x1024 .f32)
  funext y
  obtain ⟨u, p, e, rfl⟩ : ∃ (u : Fin 1) (p : Fin 2048) (e : Fin 1024), y = ix3 u p e := ⟨y 0, y 1, y 2, eq_ix3 y⟩
  rw [read_blk3 m hO (result m 0) t u p e]
  unfold outsAt0
  refine (congrFun (out_eq 0 (grid0.coords t) (ms0_0 m hO t) (hs0_0 m hO t) (ms0_1 m hO t) (hs0_1 m hO t) (ms0_2 m hO t)
    (hs0_2 m hO t) (ms0_3 m hO t) (hs0_3 m hO t) (iblk m hO 0 0 t) (iblk m hO 0 1 t) (iblk m hO 0 2 t) (tbl m 0) (tbl m 1))
    (ix3 u p e)).trans ?_
  refine (Payload.pay_apply (iblk m hO 0 0 t) (iblk m hO 0 1 t) (iblk m hO 0 2 t) u p e).trans ?_
  unfold result
  rw [Cert.PerLang.perLangLinear_apply, ← langAt_eq m hO hs t]
  simp only [iblk0_apply, iblk1_apply m hO (range_tok m hs), iblk2_apply m hO (range_tok m hs)]

/-! ## Every point writes back, and every sequence's block is written -/

/-- A point's position in the tables is the point. -/
theorem coords_val : ∀ t : Fin grid0.N, (grid0.coords t 0).val = t.val := by decide

/-- No two points visit the same sequence, so the result's block index changes at every step: every point writes back. -/
theorem flush_all (t : Fin (cfgM m hO).N) : ((cfgM m hO).win 3).flush t = true := by
  unfold Pipeline.Window.flush
  rw [Bool.and_eq_true]
  refine ⟨rfl, ?_⟩
  rw [Bool.or_eq_true, decide_eq_true_eq, decide_eq_true_eq]
  by_cases hlast : t.val + 1 = (cfgM m hO).N
  · exact Or.inl hlast
  · have hlt : t.val + 1 < (cfgM m hO).N := by have := t.isLt; omega
    refine Or.inr ⟨hlt, fun e => ?_⟩
    rw [index3, index3] at e
    have e0 : (seqAt m hO ⟨t.val + 1, hlt⟩).val = (seqAt m hO t).val := congrFun e 0
    have e1 : (grid0.coords ⟨t.val + 1, hlt⟩ 0).val = (grid0.coords t 0).val :=
      congrArg Fin.val (src_injective m (Fin.ext e0))
    have c1 : (grid0.coords ⟨t.val + 1, hlt⟩ 0).val = t.val + 1 := coords_val ⟨t.val + 1, hlt⟩
    have c2 : (grid0.coords t 0).val = t.val := coords_val t
    omega

/-- Every sequence is visited at some point, and that point's block is the sequence's slab of the result. -/
theorem cover (i : S32x2048x1024.Idx) :
    ∃ t : Fin (cfgM m hO).N, ((cfgM m hO).win 3).flush t = true ∧ i ∈ (((cfgM m hO).win 3).blk t).view.set := by
  obtain ⟨k, hk⟩ := src_surjective m (i 0)
  have hN : k.val < (cfgM m hO).N := k.isLt
  have hseq : seqAt m hO ⟨k.val, hN⟩ = i 0 := by
    unfold seqAt
    rw [show pos (grid0.coords ⟨k.val, hN⟩) = k from Fin.ext (coords_val ⟨k.val, hN⟩)]
    exact hk
  refine ⟨⟨k.val, hN⟩, flush_all m hO _, ?_⟩
  have hset : (((cfgM m hO).win 3).blk ⟨k.val, hN⟩).view.set
      = (((cfgM m hO).win 3).rect ⟨k.val, hN⟩ : Rect main_v21.ty.shape).set := View.set_slice_whole main_v21 _
  rw [hset]
  refine Rect.mem_set_unit.mpr fun a => ?_
  show ((cfgM m hO).win 3).index ⟨k.val, hN⟩ a * spec0_3.size a ≤ (i a).val
    ∧ (i a).val < ((cfgM m hO).win 3).index ⟨k.val, hN⟩ a * spec0_3.size a + spec0_3.size a
  rw [index3, hseq]
  have h1 : (i 1).val < 2048 := (i 1).isLt
  have h2 : (i 2).val < 1024 := (i 2).isLt
  match a with
  | ⟨0, _⟩ => show (i 0).val * 1 ≤ (i 0).val ∧ (i 0).val < (i 0).val * 1 + 1; omega
  | ⟨1, _⟩ => show 0 * 2048 ≤ (i 1).val ∧ (i 1).val < 0 * 2048 + 2048; omega
  | ⟨2, _⟩ => show 0 * 1024 ≤ (i 2).val ∧ (i 2).val < 0 * 1024 + 1024; omega

/-- So the result array ends holding the result. -/
theorem final
    (hs : ∀ n : Fin 32, 0 ≤ (seq0 m (ix2 n (0 : Fin 2048))).toInt ∧ (seq0 m (ix2 n (0 : Fin 2048))).toInt < 8)
    (c : Dev nD) : (dats m hO 0 c).arrAt 3 (cfgM m hO).N = result m c :=
  (dats m hO 0 c).arrAt_eq_of_cover 3 (result m c) (flushed_eq m hO hs c) (cover m hO)

/-- THE KERNEL'S RUN with its result named: every weakly fair execution terminates with the result array at the
    per-language linear layer of the gathered embeddings and the four arguments unchanged. -/
theorem run
    (hs : ∀ n : Fin 32, 0 ≤ (seq0 m (ix2 n (0 : Fin 2048))).toInt ∧ (seq0 m (ix2 n (0 : Fin 2048))).toInt < 8) :
    θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).1 3).trans (final m (ok m (range_tok m hs)) hs c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩)
    (run_main m ρ (ok m (range_tok m hs)))

end Cert.KernelIdeal.KValue

end
-- ==== Proof.LibRowGather.lean ====
/-
  A row gather read at an index.

  jnp's `table[idx]` of a matrix `table : [N, C]` at a vector of row numbers lowers to a `stablehlo.gather` whose
  start indices are the column `[n, 1]` of row numbers: operand axis 0 is collapsed and is the one start-indexed axis,
  axis 1 of the result is the one offset axis and carries the whole row (slice sizes `[1, C]`). Result element
  `(k, q)` is then the table's entry `(r, q)`, where `r` is the `k`-th row number read as a signed integer and
  clamped into `[0, N - 1]`: a row gather never reads outside the table, a negative row number reads row 0 and one
  past the end reads the last row.
-/
import Idealize.ShloMosaic.Lib.ValueIdx

noncomputable section

namespace Idealize.ShloMosaic.RowGather

open Idealize.ShloMosaic Idealize.ShloMosaic.ValueIdx

variable {α : Type}

/-- The dimension numbers of a row gather from a table `[N, C]` by a column `[n, 1]` of row numbers into `[n, C]`; their
    conditions `wf` are decided on a program's literal shapes. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, q)`: the table at row `idx[k, 0]`, read signed and clamped into `[0, N - 1]`, and
    column `q`. On the row axis the start is the clamped row number and nothing is added to it (the axis is collapsed and
    there is no batching axis); on the column axis the start is zero (the axis is not start-indexed) and the offset is
    the result's own column. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (k : Fin n) (q : Fin C) :
    Host.gather (rowDims N C n wf) x idx (ix2 k q)
      = x (ix2 ⟨min (idx (ix2 k (0 : Fin 1))).toInt.toNat (N - 1), by omega⟩ q) := by
  unfold Host.gather
  congr 1
  funext a
  refine Fin.ext ?_
  match a with
  | ⟨0, _⟩ =>
    show (rowDims N C n wf).start (ix2 k q) idx 0 + (rowDims N C n wf).batchCoord (ix2 k q) 0
        + (rowDims N C n wf).offCoord (ix2 k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    have hsi : (rowDims N C n wf).siIdx (ix2 k q) ⟨List.idxOf (0 : Fin 2) (rowDims N C n wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (rowDims N C n wf).start (ix2 k q) idx 1 + (rowDims N C n wf).batchCoord (ix2 k q) 1
        + (rowDims N C n wf).offCoord (ix2 k q) 1 = q.val
    rw [GatherDims.batchCoord_eq_zero _ _ _ List.not_mem_nil]
    unfold GatherDims.start
    have h1 : ¬ (1 : Fin 2) ∈ ([0] : List (Fin 2)) := by decide
    rw [dif_neg (show ¬ (1 : Fin 2) ∈ (rowDims N C n wf).startIndexMap from h1)]
    unfold GatherDims.offCoord
    rw [dif_pos ((GatherDims.mem_sKept _ _).mpr ⟨h1, List.not_mem_nil⟩), Nat.zero_add]
    rfl

end Idealize.ShloMosaic.RowGather

end
-- ==== Proof.LibMatGather.lean ====
/-
  A gather of whole matrices read at an index.

  jnp's `table[idx]` of a stack of matrices `table : [N, A, B]` at a vector of matrix numbers lowers to a
  `stablehlo.gather` whose start indices are the column `[n, 1]` of matrix numbers: operand axis 0 is collapsed and is
  the one start-indexed axis, axes 1 and 2 of the result are the two offset axes and carry the whole matrix (slice sizes
  `[1, A, B]`). Result element `(k, p, q)` is then the table's entry `(r, p, q)`, where `r` is the `k`-th matrix number
  read as a signed integer and clamped into `[0, N - 1]`: the gather never reads outside the table, a negative number
  reads matrix 0 and one past the end reads the last matrix.
-/
import Idealize.ShloMosaic.Lib.ValueIdx

noncomputable section

namespace Idealize.ShloMosaic.MatGather

open Idealize.ShloMosaic Idealize.ShloMosaic.ValueIdx

variable {α : Type}

/-- The dimension numbers of a gather of whole matrices from a table `[N, A, B]` by a column `[n, 1]` of matrix numbers
    into `[n, A, B]`; their conditions `wf` are decided on a program's literal shapes. -/
abbrev matDims (N A B n : Nat)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- THE GATHER READ AT `(k, p, q)`: the table at matrix `idx[k, 0]`, read signed and clamped into `[0, N - 1]`, row `p`
    and column `q`. On the matrix axis the start is the clamped matrix number and nothing is added to it (the axis is
    collapsed and there is no batching axis); on the two other axes the start is zero (they are not start-indexed) and
    the offset is the result's own coordinate on the offset axis in the same position. -/
theorem gather_mats_apply {N A B n w : Nat} (hN : 0 < N)
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ w) (k : Fin n) (p : Fin A) (q : Fin B) :
    Host.gather (matDims N A B n wf) x idx (ix3 k p q)
      = x (ix3 ⟨min (idx (ix2 k (0 : Fin 1))).toInt.toNat (N - 1), by omega⟩ p q) := by
  unfold Host.gather
  congr 1
  funext a
  refine Fin.ext ?_
  have h1 : ¬ (1 : Fin 3) ∈ ([0] : List (Fin 3)) := by decide
  have h2 : ¬ (2 : Fin 3) ∈ ([0] : List (Fin 3)) := by decide
  match a with
  | ⟨0, _⟩ =>
    show (matDims N A B n wf).start (ix3 k p q) idx 0 + (matDims N A B n wf).batchCoord (ix3 k p q) 0
        + (matDims N A B n wf).offCoord (ix3 k p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (matDims N A B n wf).startIndexMap from List.mem_singleton.mpr rfl)]
    have hsi : (matDims N A B n wf).siIdx (ix3 k p q) ⟨List.idxOf (0 : Fin 3) (matDims N A B n wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (matDims N A B n wf).start (ix3 k p q) idx 1 + (matDims N A B n wf).batchCoord (ix3 k p q) 1
        + (matDims N A B n wf).offCoord (ix3 k p q) 1 = p.val
    rw [GatherDims.batchCoord_eq_zero _ _ _ List.not_mem_nil]
    unfold GatherDims.start
    rw [dif_neg (show ¬ (1 : Fin 3) ∈ (matDims N A B n wf).startIndexMap from h1)]
    unfold GatherDims.offCoord
    rw [dif_pos ((GatherDims.mem_sKept _ _).mpr ⟨h1, List.not_mem_nil⟩), Nat.zero_add]
    rfl
  | ⟨2, _⟩ =>
    show (matDims N A B n wf).start (ix3 k p q) idx 2 + (matDims N A B n wf).batchCoord (ix3 k p q) 2
        + (matDims N A B n wf).offCoord (ix3 k p q) 2 = q.val
    rw [GatherDims.batchCoord_eq_zero _ _ _ List.not_mem_nil]
    unfold GatherDims.start
    rw [dif_neg (show ¬ (2 : Fin 3) ∈ (matDims N A B n wf).startIndexMap from h2)]
    unfold GatherDims.offCoord
    rw [dif_pos ((GatherDims.mem_sKept _ _).mpr ⟨h2, List.not_mem_nil⟩), Nat.zero_add]
    rfl

end Idealize.ShloMosaic.MatGather

end
-- ==== Proof.RefValue.lean ====
/-
  The reference computes the per-language linear layer.

  jnp's reference gathers every token's embedding (`v6`), reads each sequence's language id from its first token,
  gathers that language's weight matrix and bias row per sequence, contracts the embeddings against the gathered
  weights' input-feature axis with the sequence as a batch axis, and adds the bias row to every token. The two
  gathers index with the raw first token after jnp's negative-index wrap, and the gather clamps the row number into
  0 … 7; where the first token is a language id (at least 0, below 8) the wrap is not taken and the clamp does nothing,
  so sequence `n` reads layer `langOf seq n`. At the extended reals the contraction is the plain sum over the 1024
  features, so the result is `perLangLinear` of the gathered embeddings, index by index.
-/
import proofs.«412761_j22479858827436_3_alg».proof.Proof.Gen.ReferenceIdeal.Read
import proofs.«412761_j22479858827436_3_alg».proof.Proof.Spec
import proofs.«412761_j22479858827436_3_alg».proof.Proof.Words
import proofs.«412761_j22479858827436_3_alg».proof.Proof.LibRowGather
import proofs.«412761_j22479858827436_3_alg».proof.Proof.LibMatGather
import proofs.«412761_j22479858827436_3_alg».proof.Proof.LibFirstColumn

noncomputable section

namespace Cert.ReferenceIdeal.RefValue

open Cert.ReferenceIdeal Cert.ReferenceIdeal.Gen Cert.ReferenceIdeal.Read
open Idealize.ShloMosaic Idealize.ShloMosaic.ValueIdx
open scoped BigOperators

variable (seq : IVec S32x2048 32)

/-- The reference's vector of first tokens at `j` is the token array at `(j, 0)`. -/
theorem v8_apply (j : S32.Idx) : val_main_v8 (F := Ideal) seq j = seq (ix2 (j 0) (0 : Fin 2048)) :=
  FirstColumn.col0_apply (by norm_num) seq slices_S32x2048_S32x1_0_0 shapeCasts_S32x1_S32 j

/-- The index column of the weights' gather at row `n` is sequence `n`'s first token: it is not negative, so the wrap
    by 8 is not taken. -/
theorem v14_apply (hs : ∀ n : Fin 32, 0 ≤ (seq (ix2 n (0 : Fin 2048))).toInt ∧ (seq (ix2 n (0 : Fin 2048))).toInt < 8)
    (n : Fin 32) : val_main_v14 (F := Ideal) seq (ix2 n (0 : Fin 1)) = seq (ix2 n (0 : Fin 2048)) := by
  rw [val_main_v14_apply, val_main_v13_apply]
  simp only [val_main_v10_apply, val_main_v12_apply, val_main_v9_apply, val_main_v11_apply, val_main_c_1_apply,
    val_main_c_2_apply, v8_apply]
  exact Cert.Words.wrap_of_nonneg _ _ (hs n).1

/-- Likewise the index column of the biases' gather. -/
theorem v21_apply (hs : ∀ n : Fin 32, 0 ≤ (seq (ix2 n (0 : Fin 2048))).toInt ∧ (seq (ix2 n (0 : Fin 2048))).toInt < 8)
    (n : Fin 32) : val_main_v21 (F := Ideal) seq (ix2 n (0 : Fin 1)) = seq (ix2 n (0 : Fin 2048)) := by
  rw [val_main_v21_apply, val_main_v20_apply]
  simp only [val_main_v17_apply, val_main_v19_apply, val_main_v16_apply, val_main_v18_apply, val_main_c_3_apply,
    val_main_c_4_apply, v8_apply]
  exact Cert.Words.wrap_of_nonneg _ _ (hs n).1

/-- A first token that is a language id, read signed and clamped into 0 … 7 as the gather does, is the language id. -/
theorem clamp_lang (hs : ∀ n : Fin 32, 0 ≤ (seq (ix2 n (0 : Fin 2048))).toInt ∧ (seq (ix2 n (0 : Fin 2048))).toInt < 8)
    (n : Fin 32) (w : BitVec 32) (hw : w = seq (ix2 n (0 : Fin 2048))) (h : min w.toInt.toNat (8 - 1) < 8) :
    (⟨min w.toInt.toNat (8 - 1), h⟩ : Fin 8) = Cert.PerLang.langOf seq n := by
  subst hw
  apply Fin.ext
  show min _ (8 - 1) = min _ 7
  rw [(Cert.Words.toNat_of_range _ 8 (by norm_num) (hs n).1 (hs n).2).2, Int.toNat_natCast]

/-- The gathered weights of sequence `n` are its language's matrix. -/
theorem v15_apply (hs : ∀ n : Fin 32, 0 ≤ (seq (ix2 n (0 : Fin 2048))).toInt ∧ (seq (ix2 n (0 : Fin 2048))).toInt < 8)
    (W : FVec Ideal S8x1024x1024 .f32) (n : Fin 32) (e k : Fin 1024) :
    val_main_v15 (F := Ideal) seq W (ix3 n e k) = W (ix3 (Cert.PerLang.langOf seq n) e k) := by
  unfold val_main_v15
  refine (MatGather.gather_mats_apply (N := 8) (A := 1024) (B := 1024) (n := 32) (by norm_num)
    gather_S8x1024x1024_S32x1_S32x1024x1024_12_0_n_n_0_1_110241024_wf W (val_main_v14 (F := Ideal) seq) n e k).trans ?_
  exact congrArg (fun r : Fin 8 => W (ix3 r e k)) (clamp_lang seq hs n _ (v14_apply seq hs n) _)

/-- The gathered biases of sequence `n` are its language's row. -/
theorem v22_apply (hs : ∀ n : Fin 32, 0 ≤ (seq (ix2 n (0 : Fin 2048))).toInt ∧ (seq (ix2 n (0 : Fin 2048))).toInt < 8)
    (b : FVec Ideal S8x1024 .f32) (n : Fin 32) (e : Fin 1024) :
    val_main_v22 (F := Ideal) seq b (ix2 n e) = b (ix2 (Cert.PerLang.langOf seq n) e) := by
  unfold val_main_v22
  refine (RowGather.gather_rows_apply (N := 8) (C := 1024) (n := 32) (by norm_num)
    gather_S8x1024_S32x1_S32x1024_1_0_n_n_0_1_11024_wf b (val_main_v21 (F := Ideal) seq) n e).trans ?_
  exact congrArg (fun r : Fin 8 => b (ix2 r e)) (clamp_lang seq hs n _ (v21_apply seq hs n) _)

/-- THE REFERENCE'S RESULT is the per-language linear layer of the gathered embeddings. -/
theorem result_eq (hs : ∀ n : Fin 32, 0 ≤ (seq (ix2 n (0 : Fin 2048))).toInt ∧ (seq (ix2 n (0 : Fin 2048))).toInt < 8)
    (E : FVec Ideal S32000x1024 .f32) (W : FVec Ideal S8x1024x1024 .f32) (b : FVec Ideal S8x1024 .f32) :
    val_main_v26 (F := Ideal) seq E W b = Cert.PerLang.perLangLinear seq (val_main_v6 (F := Ideal) seq E) W b := by
  funext i
  obtain ⟨n, p, e, rfl⟩ : ∃ (n : Fin 32) (p : Fin 2048) (e : Fin 1024), i = ix3 n p e := ⟨i 0, i 1, i 2, eq_ix3 i⟩
  rw [Cert.PerLang.perLangLinear_apply, val_main_v26_apply, val_main_v23_apply, val_main_v25_apply, val_main_v24_apply]
  have hl : ∀ k : Fin 1024, lidx_main_v23 (ix3 n p e) k = ix3 n p k := fun k => funext fun a => Fin.ext (by
    match a with | ⟨0, _⟩ => rfl | ⟨1, _⟩ => rfl | ⟨2, _⟩ => rfl)
  have hrr : ∀ k : Fin 1024, ridx_main_v23 (ix3 n p e) k = ix3 n e k := fun k => funext fun a => Fin.ext (by
    match a with | ⟨0, _⟩ => rfl | ⟨1, _⟩ => rfl | ⟨2, _⟩ => rfl)
  have hb : idx_main_v24 (idx_main_v25 (ix3 n p e)) = ix2 n e := funext fun a => Fin.ext (by
    match a with | ⟨0, _⟩ => rfl | ⟨1, _⟩ => rfl)
  simp only [hl, hrr, hb, v15_apply seq hs, v22_apply seq hs]
  rfl

end Cert.ReferenceIdeal.RefValue

end
-- ==== Proof.lean ====
/-
  The certificate: a per-language linear layer over gathered embeddings, kernel against reference.

  Both programs embed 32 sequences of 2048 tokens (a row gather from the embedding table, the same operation in both)
  and send every token's embedding through the linear layer `y = W[l] x + b[l]` of its sequence's language `l`, the
  sequence's first token. The reference gathers each sequence's weights and biases and contracts with the sequence as
  a batch axis. The kernel clips the language ids, visits the sequences in the order of a stable argsort of them —
  one grid point per sequence, the visiting order and the language ids in that order prefetched as tables that its
  index maps read —, multiplies the sequence's embeddings by its language's weights in one matmul and adds the bias
  row; changes of float format are the identity on the extended reals.

  The precondition asks, beside finite float inputs, that every first token be a language id (at least 0, below 8):
  there the reference's negative-index wrap and its gather's clamp, and the kernel's clip, all leave the token alone.
  (Outside it they part: at first token -1 the reference reads layer 7 and the kernel layer 0.)

  * The kernels' frames hold under the pipeline's side condition on the two tables — every block inside its array —,
    which follows from the tables' contents: a sequence number below 32, a language id below 8.
  * The reference's frame is its run with the result dropped.
  * The ideal pass rewrote nothing.
  * At the extended reals both result arrays are ONE function of the arguments, `Cert.PerLang.perLangLinear` of the
    gathered embeddings: the kernel's because every sequence is visited exactly once and the block written at its
    point is that function read through the block; the reference's index by index. No law here distributes a
    product over a sum, so finiteness is not used.
-/
import proofs.«412761_j22479858827436_3_alg».proof.Defs
import proofs.«412761_j22479858827436_3_alg».proof.Proof.Gen.Kernel
import proofs.«412761_j22479858827436_3_alg».proof.Proof.Gen.Kernel.Frame
import proofs.«412761_j22479858827436_3_alg».proof.Proof.Gen.KernelIdeal
import proofs.«412761_j22479858827436_3_alg».proof.Proof.Gen.KernelIdeal.Frame
import proofs.«412761_j22479858827436_3_alg».proof.Proof.Gen.ReferenceIdeal
import proofs.«412761_j22479858827436_3_alg».proof.Proof.Gen.ReferenceIdeal.Run
import proofs.«412761_j22479858827436_3_alg».proof.Proof.Gen.ReferenceIdeal.Read
import proofs.«412761_j22479858827436_3_alg».proof.Proof.Gen.Pre_finite_inputs
import proofs.«412761_j22479858827436_3_alg».proof.Proof.PreDecode
import proofs.«412761_j22479858827436_3_alg».proof.Proof.IndexMapsBits
import proofs.«412761_j22479858827436_3_alg».proof.Proof.KernelValue
import proofs.«412761_j22479858827436_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- Under the word-level kernel's precondition every first token is a language id. -/
theorem lang_ids_k (m : (ℓ : Loc Cert.Kernel.nD Cert.Kernel.τ Cert.Kernel.sig) → Buf (Elt Bits) ℓ) (h : Cert.Pre_Kernel m)
    (n : Fin 32) : 0 ≤ (Cert.Kernel.Tables.seq0 m (ix2 n (0 : Fin 2048))).toInt
      ∧ (Cert.Kernel.Tables.seq0 m (ix2 n (0 : Fin 2048))).toInt < 8 :=
  Cert.PreDecode.first_token_range (F := Bits) _ _ _ _ (h 0) n

/-- Under the idealized kernel's precondition every first token is a language id. -/
theorem lang_ids_ki (m : (ℓ : Loc Cert.KernelIdeal.nD Cert.KernelIdeal.τ Cert.KernelIdeal.sig) → Buf (Elt Ideal) ℓ)
    (h : Cert.Pre_KernelIdeal m) (n : Fin 32) : 0 ≤ (Cert.KernelIdeal.Tables.seq0 m (ix2 n (0 : Fin 2048))).toInt
      ∧ (Cert.KernelIdeal.Tables.seq0 m (ix2 n (0 : Fin 2048))).toInt < 8 :=
  Cert.PreDecode.first_token_range (F := Ideal) _ _ _ _ (h 0) n

theorem frame_k : Cert.frame_Kernel := fun m ρ h =>
  Cert.Kernel.Gen.frame m ρ (Cert.Kernel.IndexMaps.ok m (Cert.Kernel.Tables.range_tok m (lang_ids_k m h)))

theorem frame_ki : Cert.frame_KernelIdeal := fun m ρ h =>
  Cert.KernelIdeal.Gen.frame m ρ (Cert.KernelIdeal.IndexMaps.ok m (Cert.KernelIdeal.Tables.range_tok m (lang_ids_ki m h)))

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's gathered embeddings are the reference's: one gather of the same table by the same index column. -/
theorem embeds_eq (m : (ℓ : Loc Cert.KernelIdeal.nD Cert.KernelIdeal.τ Cert.KernelIdeal.sig) → Buf (Elt Ideal) ℓ)
    (c : Dev Cert.KernelIdeal.nD) :
    Cert.KernelIdeal.KValue.embeds m c
      = Cert.ReferenceIdeal.Read.val_main_v6 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := rfl

/-- At the extended reals the kernel's result array ends at the per-language linear layer of the gathered embeddings
    (the kernel's run) and the reference's at the same function of arguments that agree (the reference's run, read
    index by index). -/
theorem algebraic : Cert.algebraic_KernelIdeal_ReferenceIdeal := by
  intro m ρ m' ρ' hpre hagree
  have hs := lang_ids_ki m hpre
  refine ⟨fun c => Cert.KernelIdeal.KValue.result m c, Cert.KernelIdeal.KValue.run m ρ hs, ?_⟩
  refine (θ_run Cert.ReferenceIdeal.defs _ _).mono (fun _ h c => ⟨?_, (h c).2⟩)
    (Cert.ReferenceIdeal.Value.run (F := Ideal) m' ρ')
  obtain rfl : c = 0 := Subsingleton.elim _ _
  rw [(h 0).1, Cert.ReferenceIdeal.Read.val_main_v26_eq, (hagree 0).1, (hagree 0).2.1, (hagree 0).2.2.1, (hagree 0).2.2.2,
    Cert.ReferenceIdeal.RefValue.result_eq _ hs]
  show _ = Cert.KernelIdeal.KValue.result m 0
  unfold Cert.KernelIdeal.KValue.result
  rw [embeds_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
